-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Kernel.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1x1 : Shape := ⟨2, ![1, 1]⟩
abbrev S512x1024 : Shape := ⟨2, ![512, 1024]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S1x4096, .f32⟩
  | .hbm, ⟨6, _⟩ => ⟨S1x1, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S1x1, .f32⟩
  | .local _ .vmem, ⟨9, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg0 : BitVec 32 := BitVec.ofNat 32 (i 0).val
  let c7_i32 : BitVec 32 := 7#32
  let v8 : BitVec 1 := Scalar.cmpi .eq arg0 c7_i32
  let arg1 : BitVec 32 := BitVec.ofNat 32 (i 1).val
  let c7_i32_3 : BitVec 32 := 7#32
  let v9 : BitVec 1 := Scalar.cmpi .eq arg1 c7_i32_3
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  reducesTo_S4096x1024_S4096_d1 : S4096x1024.ReducesTo [1] S4096
  h_S_ : 0 < S_.numel
  shapeCasts_S4096_S4096x1 : S4096.ShapeCasts S4096x1
  shapeCasts_S4096_S1x4096 : S4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S1024x4096 : Shape := ⟨2, ![1024, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S4096, .f32⟩
  | .hbm, ⟨4, _⟩ => ⟨S1024x4096, .f32⟩
  | .hbm, ⟨5, _⟩ => ⟨S4096x4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .i1⟩
  | .hbm, ⟨19, _⟩ => ⟨S4096x4096, .i1⟩
  | .hbm, ⟨20, _⟩ => ⟨S4096x4096, .i32⟩
  | .hbm, ⟨21, _⟩ => ⟨S_, .i32⟩
  | .hbm, ⟨22, _⟩ => ⟨S4096x4096, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .i1⟩
  | .hbm, ⟨27, _⟩ => ⟨S4096x4096, .i1⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v15 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_call2_v0 : Ref sig .tc := ⟨.hbm, 41, rfl⟩
abbrev main_call2_v1 : Ref sig .tc := ⟨.hbm, 42, rfl⟩
abbrev main_v22 : Ref sig .tc := ⟨.hbm, 43, rfl⟩
abbrev main_cst_6 : Ref sig .tc := ⟨.hbm, 44, rfl⟩
abbrev main_v23 : Ref sig .tc := ⟨.hbm, 45, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  transposes_S4096x1024_S1024x4096_1_0 : S4096x1024.Transposes [1, 0] S1024x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.K.Setup.lean ====
/-
  What the kernel's body runs, its proof data and its launch are all stated over: the arrays as the kernel region
  finds them (the argument, and the squared norms the host lines before the region computed and reshaped into a
  column and a row), the region's place in the host program, the three branch conditions of the body in closed form
  over the 64 grid points (point `t` is tile `(t / 8, t % 8)`: the reset at point 0, the tile's contribution when
  `t / 8 ≤ t % 8`, the write of the result at point 63), each window's staging buffer and block at a point, and where
  the result window is idle.
-/
import proofs.«133229_j43258910605422_1_alg».proof.Proof.Gen.Kernel.Launch
import proofs.«133229_j43258910605422_1_alg».proof.Proof.Gen.Kernel.Skeleton
import proofs.«133229_j43258910605422_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region -/

/-- A core's buffer contents when the region is entered: after the five host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The host program is the lines before the region, the region, and the one line after it: it reduces to the region
    continued by that line, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The host lines before the region do not write the argument. -/
theorem V_main_arg0 (c : Dev nD) : V m c main_arg0 = m ((c : Thread nD τ).loc main_arg0) := by
  dsimp only [V, V0]
  simp only [hostOps0, List.flatten_cons, List.flatten_nil, List.append_nil]
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions, decided over the grid -/

/-- The reset's condition: both grid coordinates zero. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- It holds at the first point only. -/
theorem hcond1 : ∀ t : Fin cfg0.N, cond1 (grid0.coords t) ↔ t.val = 0 :=
  (by decide +kernel : ∀ t : Fin grid0.N, cond1 (grid0.coords t) ↔ t.val = 0)

/-- The contribution's condition: the tile's row index at most its column index. -/
abbrev cond2 (i : grid0.Coords) : Prop :=
  Scalar.cmpi .ne (Scalar.extui (Scalar.cmpi .sle (BitVec.ofNat 32 (i 0).val) (BitVec.ofNat 32 (i 1).val))) 0#32 = 1#1
/-- It holds at the points on or above the diagonal of the 8 × 8 grid. -/
theorem hcond2 : ∀ t : Fin cfg0.N, cond2 (grid0.coords t) ↔ t.val / 8 ≤ t.val % 8 :=
  (by decide +kernel : ∀ t : Fin grid0.N, cond2 (grid0.coords t) ↔ t.val / 8 ≤ t.val % 8)

/-- The result's condition: both grid coordinates at their last value. -/
abbrev cond3 (i : grid0.Coords) : Prop := k0_cond3 i = 1#1
/-- It holds at the last point only. -/
theorem hcond3 : ∀ t : Fin cfg0.N, cond3 (grid0.coords t) ↔ t.val = 63 :=
  (by decide +kernel : ∀ t : Fin grid0.N, cond3 (grid0.coords t) ↔ t.val = 63)

/-- A point's grid coordinates are its quotient and remainder by 8. -/
theorem coords0 : ∀ t : Fin cfg0.N, ((grid0.coords t) 0).val = t.val / 8 :=
  (by decide +kernel : ∀ t : Fin grid0.N, ((grid0.coords t) 0).val = t.val / 8)
theorem coords1 : ∀ t : Fin cfg0.N, ((grid0.coords t) 1).val = t.val % 8 :=
  (by decide +kernel : ∀ t : Fin grid0.N, ((grid0.coords t) 1).val = t.val % 8)

/-! ## Where the windows are idle, and when the result is written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- The result window is idle wherever the body does not store into it, -/
theorem idleAt4 : ∀ t : Fin cfg0.N, ¬cond3 (grid0.coords t) → cfg0.idle 4 (grid0.coords t) = true := by decide +kernel
/-- is not written back there, -/
theorem noFlush4 : ∀ t : Fin cfg0.N, ¬cond3 (grid0.coords t) → (cfg0.win 4).flush t = false := by decide +kernel
/-- and is live at the last point. -/
theorem liveAt4 : ∀ t : Fin cfg0.N, cond3 (grid0.coords t) → cfg0.idle 4 (grid0.coords t) = false := by decide +kernel

/-! ## The staging buffers at a point, and the scratch -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The running scalar's buffer: a scratch of the kernel's own, kept from point to point. -/
abbrev scM : Memref sig .tc .vmem S1x1 .f32 := Memref.whole cc0_scratch0

/-- What the launch hands the region besides the windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.K.Data.lean ====
/-
  The pipeline's proof data. The body keeps one running scalar in its scratch: point 0 resets it and adds the first
  tile's sum; a later point `t` adds its tile's sum exactly when `t / 8 ≤ t % 8` and otherwise leaves it alone;
  the last point copies it into the result's staging buffer, which is written back there and nowhere else.
  `accAt` is that scalar after each point, as the body's own arithmetic (its payloads) of the four input blocks;
  the region's invariant carries the scratch at `accAt` from point to point. The argument array is read by two
  windows, which hold it at the two halves of the full share.
-/
import proofs.«133229_j43258910605422_1_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile's sum at point `t`: the body's arithmetic of the four input blocks there and the point's coordinates. -/
def tileAt (c : Dev nD) (t : Fin cfg0.N) : F .f32 :=
  k0_pay3 (BitVec.ofNat 32 ((grid0.coords t) 0).val) (BitVec.ofNat 32 ((grid0.coords t) 1).val)
    (iblk m c 0 t) (iblk m c 1 t) (iblk m c 2 t) (iblk m c 3 t)

/-- THE ACCUMULATION: the scratch after the body at position `n`. -/
def accAt (c : Dev nD) : (n : ℕ) → n < cfg0.N → Vec F S1x1 .f32
  | 0, hn => k0_pay2 (k0_pay1 (F := F)) (tileAt m c ⟨0, hn⟩)
  | n + 1, hn =>
    if (n + 1) / 8 ≤ (n + 1) % 8 then k0_pay2 (accAt c n (Nat.lt_of_succ_lt hn)) (tileAt m c ⟨n + 1, hn⟩)
    else accAt c n (Nat.lt_of_succ_lt hn)

theorem accAt_zero (c : Dev nD) (hn : 0 < cfg0.N) :
    accAt m c 0 hn = k0_pay2 (k0_pay1 (F := F)) (tileAt m c ⟨0, hn⟩) := rfl

/-- At a point on or above the diagonal (not the first) the tile's sum is added to what the point before left. -/
theorem accAt_add (c : Dev nD) (t : Fin cfg0.N) (hz : t.val ≠ 0) (h : t.val / 8 ≤ t.val % 8) :
    accAt m c t.val t.isLt = k0_pay2 (accAt m c (t.val - 1) (Nat.lt_of_le_of_lt (Nat.sub_le _ _) t.isLt)) (tileAt m c t) := by
  obtain ⟨n, hn⟩ := t
  cases n with
  | zero => exact absurd rfl hz
  | succ n => exact (if_pos h).trans rfl

/-- Below the diagonal the scratch is what the point before left. -/
theorem accAt_keep (c : Dev nD) (t : Fin cfg0.N) (h : ¬t.val / 8 ≤ t.val % 8) :
    accAt m c t.val t.isLt = accAt m c (t.val - 1) (Nat.lt_of_le_of_lt (Nat.sub_le _ _) t.isLt) := by
  obtain ⟨n, hn⟩ := t
  cases n with
  | zero => exact absurd (show (0 : ℕ) / 8 ≤ 0 % 8 by decide) h
  | succ n => exact (if_neg h).trans rfl

/-- The region's invariant before position `n`: before the first point what the launch hands over (the scratch at
    anything, the generator register); afterwards the scratch at what the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

/-- The shares: the two windows on the argument hold its halves; the squared norms' windows and the result hold theirs whole. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

end Cert.Kernel.Hand

end
-- ==== Proof.K.Runs.lean ====
/-
  The kernel body run once per control case, on any whole staging buffers. The three branches of the body are
  decided by the grid point, and the 64 points meet four combinations: the first point (reset, then the tile's sum
  added), a later point on or above the diagonal (the tile's sum added to the scratch), a point below the diagonal
  (nothing touched), and the last point (the tile's sum added, then the scratch copied into the result's buffer).
  Each run hands back the input buffers as it found them and the scratch — and at the last point the result's
  buffer — at the body's own arithmetic of what it loaded.
-/
import proofs.«133229_j43258910605422_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two rectangle, as the constant function. -/
theorem zeros2 : (![0, 0] : Fin 2 → ℕ) = fun _ => 0 := by funext a; fin_cases a <;> rfl

set_option maxHeartbeats 1000000 in
/-- The first point: the scratch, at anything, is reset and the tile's sum added; the result's buffer is untouched. -/
theorem run_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : cond1 i) (h2 : cond2 i) (h3 : ¬cond3 i) (x0 : Vec F S512x1024 .f32) (x1 : Vec F S512x1024 .f32) (x2 : Vec F S512x1 .f32) (x3 : Vec F S1x512 .f32) (y4 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ (∃ s, owns (c : Thread nD τ) arg7 fullShare s)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
              ∗ owns (c : Thread nD τ) arg7 fullShare (k0_pay2 (k0_pay1 (F := F)) (k0_pay3 (BitVec.ofNat 32 (i 0).val) (BitVec.ofNat 32 (i 1).val) x0 x1 x2 x3))) -∗ K ⟨⟩))
      ⊢ wp frame (wpE (defs₀ (F := F)) Variants.none c none) E (cc0__interclass_kernel i arg2 harg2 arg3 harg3 arg4 harg4 arg5 harg5 arg6 harg6 arg7 harg7) K := by
  simp only [cc0__interclass_kernel_eq_skeleton]; unfold cc0__interclass_kernel_skel
  unfold owns
  iintro ⟨⟨%f0, %hf0, H0⟩, ⟨%f1, %hf1, H1⟩, ⟨%f2, %hf2, H2⟩, ⟨%f3, %hf3, H3⟩, ⟨%f4, %hf4, H4⟩, ⟨%s, %f5, -, H5⟩, Hk⟩
  obtain rfl := harg2.eq_unread hf0; obtain rfl := harg3.eq_unread hf1; obtain rfl := harg4.eq_unread hf2
  obtain rfl := harg5.eq_unread hf3
  sl_exec (disch := first | exact h1 | exact h2 | exact h3)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  iexists _; isplitr
  swap
  · iexact H5
  ipureintro
  rw [View.read_writes_eq_canon _ _ _ (fun y => ⟨_, List.Mem.head _, View.mem_set_unit_zero zeros2 inb_S1x1_S1x1_0_0 y⟩)]
  sl_unfold_words
  rw [View.canon_cons_unit_zero (S := S1x1) zeros2, View.readCov_unit_zero (S := S1x1) _ zeros2]
  simp only [View.readAt_eq_ld, harg2.read_unread, harg3.read_unread, harg4.read_unread, harg5.read_unread,
    harg7.read_unread, View.ld_unit_zero (S := S512x1024) zeros2, View.ld_unit_zero (S := S512x1) zeros2,
    View.ld_unit_zero (S := S1x512) zeros2, View.ld_unit_zero (S := S1x1) zeros2]

set_option maxHeartbeats 1000000 in
/-- A later point on or above the diagonal, not the last: the tile's sum is added to the scratch. -/
theorem run_add (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : ¬cond1 i) (h2 : cond2 i) (h3 : ¬cond3 i) (x0 : Vec F S512x1024 .f32) (x1 : Vec F S512x1024 .f32) (x2 : Vec F S512x1 .f32) (x3 : Vec F S1x512 .f32) (y4 : Vec F S1x1 .f32) (s : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
              ∗ owns (c : Thread nD τ) arg7 fullShare (k0_pay2 s (k0_pay3 (BitVec.ofNat 32 (i 0).val) (BitVec.ofNat 32 (i 1).val) x0 x1 x2 x3))) -∗ K ⟨⟩))
      ⊢ wp frame (wpE (defs₀ (F := F)) Variants.none c none) E (cc0__interclass_kernel i arg2 harg2 arg3 harg3 arg4 harg4 arg5 harg5 arg6 harg6 arg7 harg7) K := by
  simp only [cc0__interclass_kernel_eq_skeleton]; unfold cc0__interclass_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg7.eq_unread hf5
  sl_exec (disch := first | exact h1 | exact h2 | exact h3)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  iexists _; isplitr
  swap
  · iexact H5
  ipureintro
  rw [View.read_writes_eq_canon _ _ _ (fun y => ⟨_, List.mem_singleton_self _, View.mem_set_unit_zero zeros2 inb_S1x1_S1x1_0_0 y⟩)]
  sl_unfold_words
  rw [View.canon_unit_zero zeros2]
  simp only [View.readAt_eq_ld, harg2.read_unread, harg3.read_unread, harg4.read_unread, harg5.read_unread,
    harg7.read_unread, View.ld_unit_zero (S := S512x1024) zeros2, View.ld_unit_zero (S := S512x1) zeros2,
    View.ld_unit_zero (S := S1x512) zeros2, View.ld_unit_zero (S := S1x1) zeros2]

/-- A point below the diagonal: the body touches nothing. -/
theorem run_skip (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : ¬cond1 i) (h2 : ¬cond2 i) (h3 : ¬cond3 i) (x0 : Vec F S512x1024 .f32) (x1 : Vec F S512x1024 .f32) (x2 : Vec F S512x1 .f32) (x3 : Vec F S1x512 .f32) (y4 : Vec F S1x1 .f32) (s : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
              ∗ owns (c : Thread nD τ) arg7 fullShare s) -∗ K ⟨⟩))
      ⊢ wp frame (wpE (defs₀ (F := F)) Variants.none c none) E (cc0__interclass_kernel i arg2 harg2 arg3 harg3 arg4 harg4 arg5 harg5 arg6 harg6 arg7 harg7) K := by
  simp only [cc0__interclass_kernel_eq_skeleton]; unfold cc0__interclass_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  sl_exec (disch := first | exact h1 | exact h2 | exact h3)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  iexists _; isplitr
  · ipureintro; exact hf5
  iexact H5

set_option maxHeartbeats 1000000 in
/-- The last point: the tile's sum is added to the scratch, and the scratch copied into the result's buffer (found at anything). -/
theorem run_last (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : ¬cond1 i) (h2 : cond2 i) (h3 : cond3 i) (x0 : Vec F S512x1024 .f32) (x1 : Vec F S512x1024 .f32) (x2 : Vec F S512x1 .f32) (x3 : Vec F S1x512 .f32) (s : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ y4, owns (c : Thread nD τ) arg6 fullShare y4) ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 s (k0_pay3 (BitVec.ofNat 32 (i 0).val) (BitVec.ofNat 32 (i 1).val) x0 x1 x2 x3))
              ∗ owns (c : Thread nD τ) arg7 fullShare (k0_pay2 s (k0_pay3 (BitVec.ofNat 32 (i 0).val) (BitVec.ofNat 32 (i 1).val) x0 x1 x2 x3))) -∗ K ⟨⟩))
      ⊢ wp frame (wpE (defs₀ (F := F)) Variants.none c none) E (cc0__interclass_kernel i arg2 harg2 arg3 harg3 arg4 harg4 arg5 harg5 arg6 harg6 arg7 harg7) K := by
  simp only [cc0__interclass_kernel_eq_skeleton]; unfold cc0__interclass_kernel_skel
  unfold owns
  iintro ⟨⟨%f0, %hf0, H0⟩, ⟨%f1, %hf1, H1⟩, ⟨%f2, %hf2, H2⟩, ⟨%f3, %hf3, H3⟩, ⟨%y4, %f4, -, H4⟩, ⟨%f5, %hf5, H5⟩, Hk⟩
  obtain rfl := harg2.eq_unread hf0; obtain rfl := harg3.eq_unread hf1; obtain rfl := harg4.eq_unread hf2
  obtain rfl := harg5.eq_unread hf3; obtain rfl := harg7.eq_unread hf5
  sl_exec (disch := first | exact h1 | exact h2 | exact h3)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    swap
    · iexact H4
    ipureintro
    rw [View.read_writes_eq_canon _ _ _ (fun y => ⟨_, List.mem_singleton_self _, View.mem_set_unit_zero zeros2 inb_S1x1_S1x1_0_0 y⟩)]
    sl_unfold_words
    rw [View.canon_unit_zero zeros2, View.readCov_unit_zero (S := S1x1) _ zeros2]
    simp only [View.readAt_eq_ld, harg2.read_unread, harg3.read_unread, harg4.read_unread, harg5.read_unread,
    harg7.read_unread, View.ld_unit_zero (S := S512x1024) zeros2, View.ld_unit_zero (S := S512x1) zeros2,
    View.ld_unit_zero (S := S1x512) zeros2, View.ld_unit_zero (S := S1x1) zeros2]
  iexists _; isplitr
  swap
  · iexact H5
  ipureintro
  sl_unfold_words
  rw [View.read_writes_eq_canon _ _ _ (fun y => ⟨_, List.mem_singleton_self _, View.mem_set_unit_zero zeros2 inb_S1x1_S1x1_0_0 y⟩)]
  rw [View.canon_unit_zero zeros2]
  simp only [View.readAt_eq_ld, harg2.read_unread, harg3.read_unread, harg4.read_unread, harg5.read_unread,
    harg7.read_unread, View.ld_unit_zero (S := S512x1024) zeros2, View.ld_unit_zero (S := S512x1) zeros2,
    View.ld_unit_zero (S := S1x512) zeros2, View.ld_unit_zero (S := S1x1) zeros2]

end Cert.Kernel.Hand

end
-- ==== Proof.K.Body.lean ====
/-
  The body obligation of the region, at every grid point. Each input window's current staging buffer holds its
  block at every point, fetched there or not. The 64 points fall into four cases by the three branch conditions:
  the first point (the scratch reset, the first tile's sum added), a later point on or above the diagonal (the
  tile's sum added), a point below the diagonal (nothing touched), and the last point (the tile's sum added and the
  scratch copied into the result's buffer). In each case the body's run hands back the input buffers as found and
  the scratch at the accumulation's value after the point; the result's buffer is left as found wherever the
  window is idle, and holds the accumulation at the last point.
-/
import proofs.«133229_j43258910605422_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the input windows' buffers hold when the body is called -/

/-- An input window's current staging buffer holds its block at every point, fetched there or not: unfetched, the
    block index has not moved since the point before, and the body leaves the block in place. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-! ## The accumulation at the first point -/

/-- At the first point the scratch is reset and the first tile's sum added. -/
theorem accAt_first (c : Dev nD) (t : Fin cfg0.N) (hz : t.val = 0) :
    accAt m c t.val t.isLt = k0_pay2 (k0_pay1 (F := F)) (tileAt m c t) := by
  obtain ⟨n, hn⟩ := t
  cases n with
  | zero => rfl
  | succ n => exact absurd hz (Nat.succ_ne_zero n)

/-! ## The body obligation, at a generic point -/

/-- What the body is called with at point `t`: the invariant, what the core owes, and the five windows' current
    staging buffers one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the closed forms of the three conditions say
    which of the four cases the point is in, and that case's run applies. The invariant hands the run the scratch
    (at anything at the first point, at what the point before left afterwards) and takes it back at the
    accumulation after this point; the result's buffer comes back as found where the window is idle, and at the
    accumulation at the last point; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  by_cases hz : t.val = 0
  · -- the first point: reset, then the tile's sum added
    have h1 : cond1 (grid0.coords t) := (hcond1 t).mpr hz
    have h2 : cond2 (grid0.coords t) := (hcond2 t).mpr (by omega)
    have h3 : ¬cond3 (grid0.coords t) := fun h => by have := (hcond3 t).mp h; omega
    rw [Dat.leavesExact_idle (dats m 0 c) 4 t (idleAt4 t h3) (noFlush4 t h3)]
    rw [accAt_first m c t hz]
    unfold tileAt
    rw [PhiS_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩⟩
    iapply (run_first c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) ((dats m 0 c).before 4 t d4) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    iexists d4; iexact H4
  · have h1 : ¬cond1 (grid0.coords t) := fun h => hz ((hcond1 t).mp h)
    rw [PhiS_castSucc m c t, PhiS_pos m c _ _ hz]
    by_cases hl : t.val = 63
    · -- the last point: the tile's sum added, the scratch copied into the result's buffer
      have hd : t.val / 8 ≤ t.val % 8 := by omega
      have h2 : cond2 (grid0.coords t) := (hcond2 t).mpr hd
      have h3 : cond3 (grid0.coords t) := (hcond3 t).mpr hl
      rw [show (dats m 0 c).leavesExact 4 t = owns (c : Thread nD τ) (ms4 t) fullShare ((dats m 0 c).after 4 t) from by
        unfold Dat.leavesExact; rw [liveAt4 t h3], after4]
      rw [accAt_add m c t hz hd]
      unfold tileAt
      iintro ⟨⟨HS, Hg⟩, Ho, ⟨%d0, H0⟩, ⟨%d1, H1⟩, ⟨%d2, H2⟩, ⟨%d3, H3⟩, ⟨%d4, H4⟩⟩
      iapply (run_last c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      iexact H4
    · have h3 : ¬cond3 (grid0.coords t) := fun h => hl ((hcond3 t).mp h)
      rw [Dat.leavesExact_idle (dats m 0 c) 4 t (idleAt4 t h3) (noFlush4 t h3)]
      by_cases hd : t.val / 8 ≤ t.val % 8
      · -- a later point on or above the diagonal: the tile's sum added
        have h2 : cond2 (grid0.coords t) := (hcond2 t).mpr hd
        rw [accAt_add m c t hz hd]
        unfold tileAt
        iintro ⟨⟨HS, Hg⟩, Ho, ⟨%d0, H0⟩, ⟨%d1, H1⟩, ⟨%d2, H2⟩, ⟨%d3, H3⟩, ⟨%d4, H4⟩⟩
        iapply (run_add c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) ((dats m 0 c).before 4 t d4) (accAt m c (t.val - 1) (Nat.lt_of_le_of_lt (Nat.sub_le _ _) t.isLt)) Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS Hg]
        · isplitl [HS]
          · iexact HS
          iexact Hg
        isplitl [Ho]; · iexact Ho
        isplitl [H0]; · iexact H0
        isplitl [H1]; · iexact H1
        isplitl [H2]; · iexact H2
        isplitl [H3]; · iexact H3
        iexists d4; iexact H4
      · -- a point below the diagonal: nothing touched
        have h2 : ¬cond2 (grid0.coords t) := fun h => hd ((hcond2 t).mp h)
        rw [accAt_keep m c t hd]
        iintro ⟨⟨HS, Hg⟩, Ho, ⟨%d0, H0⟩, ⟨%d1, H1⟩, ⟨%d2, H2⟩, ⟨%d3, H3⟩, ⟨%d4, H4⟩⟩
        iapply (run_skip c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) ((dats m 0 c).before 4 t d4) (accAt m c (t.val - 1) (Nat.lt_of_le_of_lt (Nat.sub_le _ _) t.isLt)) Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS Hg]
        · isplitl [HS]
          · iexact HS
          iexact Hg
        isplitl [Ho]; · iexact Ho
        isplitl [H0]; · iexact H0
        isplitl [H1]; · iexact H1
        isplitl [H2]; · iexact H2
        isplitl [H3]; · iexact H3
        iexists d4; iexact H4

/-- The body obligation of the region: the body's triple at every grid point, the windows taken together. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The launch. The kernel region is entered after the host lines that compute the squared norms, from the core's
  unscoped buffers at their contents there; the argument's buffer, which two windows read, is dealt to them as its
  two half shares; the region runs under the proof data of Data.lean; the one host line after the region reads the
  result's array and writes the scalar result; at the end the two half shares of the argument are what the final
  memory is read against, and the argument is found unchanged.
-/
import proofs.«133229_j43258910605422_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the five windows' arrays: the argument, the two reshaped squared norms, the result. -/
theorem arrBufs_eq (c : Dev nD) :
    (Pipeline.arrBufs spec0 c (V m c) : sProp 𝕄)
      = iprop((((c : Thread nD τ).loc main_arg0) ↦{fullShare} V m c main_arg0) ∗ (((c : Thread nD τ).loc main_v2) ↦{fullShare} V m c main_v2)
          ∗ (((c : Thread nD τ).loc main_v3) ↦{fullShare} V m c main_v3) ∗ (((c : Thread nD τ).loc main_v4) ↦{fullShare} V m c main_v4)) :=
  BI.bigSep_eq_bigSepL_of_eq [main_arg0, main_v2, main_v3, main_v4] (by decide) (by decide) _

/-- The pipeline's arrays at contents `G`, window by window: the argument at its two half shares. -/
theorem arrays_eq5 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v2) ↦{fullShare} G 2) ∗ (((c : Thread nD τ).loc main_v3) ↦{fullShare} G 3)
          ∗ (((c : Thread nD τ).loc main_v4) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- ENTRY: the buffers behind the arrays, whole, make the pipeline's arrays at the entry contents. -/
theorem hsplit (c : Dev nD) : (Pipeline.arrBufs spec0 c (V m c) : sProp 𝕄) ⊢ (dats m 0 c).arrays ((dats m 0 c).arrAt · 0) := by
  rw [arrBufs_eq, arrays_eq5]
  iintro ⟨Ha, H2, H3, H4⟩
  ihave Ha := (pointsTo_share (PosShare.mem_left_op_right fullShare)).1 $$ Ha
  icases Ha with ⟨Hl, Hr⟩
  isplitl [Hl]; · iexact Hl
  isplitl [Hr]; · iexact Hr
  isplitl [H2]; · iexact H2
  isplitl [H3]; · iexact H3
  iexact H4

/-! ## The host line after the region -/

/-- The core's buffer contents at the region's exit, as far as the line after it looks: the result's array at what the
    write-back left, every other buffer as the region found it. -/
def Wx (c : Dev nD) : Valuation τ sig (Elt F) :=
  Function.update (V0 m c) (Proc.devRef .tc main_v4) ((dats m 0 c).arrAt 4 cfg0.N)

/-- The program's result buffer after that line. -/
def resOf (c : Dev nD) : Buf (Elt F) ((c : Thread nD τ).loc main_v5) :=
  StableHlo.after (List.flatten [hostOps1]) (Wx m c) (Proc.devRef .tc main_v5)

/-- The two buffers the line touches. -/
abbrev tailSet : Finset (DevRef τ sig) := {Proc.devRef .tc main_v4, Proc.devRef .tc main_v5}

theorem held_tail (c : Dev nD) (W : Valuation τ sig (Elt F)) :
    (StableHlo.held (c : Thread nD τ) tailSet W : sProp 𝕄)
      = iprop((((c : Thread nD τ).loc main_v4) ↦{fullShare} W (Proc.devRef .tc main_v4)) ∗ (((c : Thread nD τ).loc main_v5) ↦{fullShare} W (Proc.devRef .tc main_v5))) :=
  BI.bigSep_eq_bigSepL_of_eq [Proc.devRef .tc main_v4, Proc.devRef .tc main_v5] (by decide) (by decide) _

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  exact Finset.Subset.refl _

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The line does not write the result's array. -/
theorem after_v4 (c : Dev nD) :
    StableHlo.after (List.flatten [hostOps1]) (Wx m c) (Proc.devRef .tc main_v4) = (dats m 0 c).arrAt 4 cfg0.N := by
  simp only [hostOps1, List.flatten_cons, List.flatten_nil, List.append_nil]
  after_results
  exact Function.update_self _ _ _

theorem Wx_v4 (c : Dev nD) : Wx m c (Proc.devRef .tc main_v4) = (dats m 0 c).arrAt 4 cfg0.N := Function.update_self _ _ _
theorem Wx_v5 (c : Dev nD) : Wx m c (Proc.devRef .tc main_v5) = V m c main_v5 :=
  Function.update_of_ne (by decide) _ _

/-- The unscoped buffers the region does not stage, after the line: the result buffer at `resOf`, the others untouched. -/
def restAfter (c : Dev nD) : sProp 𝕄 :=
  iprop((((c : Thread nD τ).loc main_v0) ↦{fullShare} V m c main_v0) ∗ (((c : Thread nD τ).loc main_cst) ↦{fullShare} V m c main_cst)
    ∗ (((c : Thread nD τ).loc main_v1) ↦{fullShare} V m c main_v1) ∗ (((c : Thread nD τ).loc main_v5) ↦{fullShare} resOf m c))

set_option backward.isDefEq.respectTransparency.types false in
/-- The line's step: holding the two buffers it touches, it runs to the continuation holding the result's array as it was
    and the result buffer at `resOf`. -/
theorem tail_step (c : Dev nD) (K : PUnit → sProp 𝕄) :
    iprop(boundary (c : Thread nD τ) ∗ (((c : Thread nD τ).loc main_v4) ↦{fullShare} (dats m 0 c).arrAt 4 cfg0.N)
        ∗ (((c : Thread nD τ).loc main_v5) ↦{fullShare} V m c main_v5))
      ⊢ iprop(((boundary (c : Thread nD τ) ∗ (((c : Thread nD τ).loc main_v4) ↦{fullShare} (dats m 0 c).arrAt 4 cfg0.N)
                ∗ (((c : Thread nD τ).loc main_v5) ↦{fullShare} resOf m c)) -∗ |={Set.univ}=> K ⟨⟩)
          -∗ wp frame (wpE (defs (F := F)) (Variants.lift Variants.none) (c : Thread nD τ) none) Set.univ (Pipeline.chain [StableHlo.seq hostOps1]) K) := by
  have h := Pipeline.wp_seqs_then (fun q => (cfgs q).toPCfg (Val := Elt F)) defs₀ Variants.none c tailSet [] (K := K) [hostOps1] tail_sub tail_fresh (Wx m c)
  rw [held_tail, held_tail, Wx_v4, Wx_v5, after_v4, Pipeline.chain_nil, wp_pure] at h
  exact h

/-- The line after the region, run from the region's exit. -/
theorem htail (c : Dev nD) (Q' : PUnit → sProp 𝕄) :
    iprop((iprop((dats m 0 c).arrays ((dats m 0 c).arrAt · cfg0.N) ∗ restAfter m c) -∗ Q' ⟨⟩)
        ∗ boundary (c : Thread nD τ) ∗ (dats m 0 c).arrays ((dats m 0 c).arrAt · cfg0.N) ∗ Pipeline.unscopedRest spec0 c (V m c))
      ⊢ wp frame (wpE (defs (F := F)) (Variants.lift Variants.none) (c : Thread nD τ) none) Set.univ (Pipeline.chain [StableHlo.seq hostOps1]) Q' := by
  rw [arrays_eq5, unscopedRest0_eq]
  unfold restAfter
  iintro ⟨Hk, Hb, ⟨Hl, Hr, H2, H3, H4⟩, ⟨H0, Hc, H1, H5⟩⟩
  iapply (tail_step m c Q') $$ [Hb H4 H5]
  · isplitl [Hb]; · iexact Hb
    isplitl [H4] <;> iassumption
  iintro ⟨Hb, H4, H5⟩
  imodintro
  iapply Hk
  isplitl [Hl Hr H2 H3 H4]
  · isplitl [Hl]; · iexact Hl
    isplitl [Hr]; · iexact Hr
    isplitl [H2]; · iexact H2
    isplitl [H3]; · iexact H3
    iexact H4
  isplitl [H0]; · iexact H0
  isplitl [Hc]; · iexact Hc
  isplitl [H1]; · iexact H1
  iexact H5

/-! ## The run -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back the scratch at some contents and the generator register. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

set_option backward.isDefEq.respectTransparency.types false in
/-- THE RUN, from the body obligation: every weakly fair execution of the host program terminates, with the result
    buffer at `resOf` and the argument unchanged. -/
theorem run_main_of (hbody : ∀ c, BodyObligation (dats (F := F) m 0 c) (defs₀ (F := F)) Variants.none () Set.univ) :
    θ_run (defs (F := F)) (onTc (τ := τ) (main (F := F))) ⟨m, fun _ => 0, ρ⟩ (fun r => ∀ c : Dev nD,
      r.2.mem ((c.tc : Thread nD τ).loc main_v5) = resOf m c
      ∧ r.2.mem ((c.tc : Thread nD τ).loc main_arg0) = m ((c.tc : Thread nD τ).loc main_arg0)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := restAfter m)
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => s.mem ((c.tc : Thread nD τ).loc main_v5) = resOf m c)
    (hY := fun c s' => by
      unfold restAfter
      iintro ⟨-, ⟨-, -, -, H5⟩, HSI⟩
      imodintro
      icombine HSI H5 gives %h
      isplitr; · ipureintro; exact Buf.eq_of_forall_mem_univ h
      iexact HSI)
    (hQ := fun s h c => ⟨(h c).2.2, ((h c).1 0).trans (((dats m 0 c).arrAt_in 0 rfl _).trans ((A_eq m c 0).trans (V_main_arg0 m c)))⟩)

end Cert.Kernel.Hand

end
-- ==== Proof.KI.Setup.lean ====
/-
  What the kernel's body runs, its proof data and its launch are all stated over: the arrays as the kernel region
  finds them (the argument, and the squared norms the host lines before the region computed and reshaped into a
  column and a row), the region's place in the host program, the three branch conditions of the body in closed form
  over the 64 grid points (point `t` is tile `(t / 8, t % 8)`: the reset at point 0, the tile's contribution when
  `t / 8 ≤ t % 8`, the write of the result at point 63), each window's staging buffer and block at a point, and where
  the result window is idle.
-/
import proofs.«133229_j43258910605422_1_alg».proof.Proof.Gen.KernelIdeal.Launch
import proofs.«133229_j43258910605422_1_alg».proof.Proof.Gen.KernelIdeal.Skeleton
import proofs.«133229_j43258910605422_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the region -/

/-- A core's buffer contents when the region is entered: after the five host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The host program is the lines before the region, the region, and the one line after it: it reduces to the region
    continued by that line, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The host lines before the region do not write the argument. -/
theorem V_main_arg0 (c : Dev nD) : V m c main_arg0 = m ((c : Thread nD τ).loc main_arg0) := by
  dsimp only [V, V0]
  simp only [hostOps0, List.flatten_cons, List.flatten_nil, List.append_nil]
  after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's branch conditions, decided over the grid -/

/-- The reset's condition: both grid coordinates zero. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- It holds at the first point only. -/
theorem hcond1 : ∀ t : Fin cfg0.N, cond1 (grid0.coords t) ↔ t.val = 0 :=
  (by decide +kernel : ∀ t : Fin grid0.N, cond1 (grid0.coords t) ↔ t.val = 0)

/-- The contribution's condition: the tile's row index at most its column index. -/
abbrev cond2 (i : grid0.Coords) : Prop :=
  Scalar.cmpi .ne (Scalar.extui (Scalar.cmpi .sle (BitVec.ofNat 32 (i 0).val) (BitVec.ofNat 32 (i 1).val))) 0#32 = 1#1
/-- It holds at the points on or above the diagonal of the 8 × 8 grid. -/
theorem hcond2 : ∀ t : Fin cfg0.N, cond2 (grid0.coords t) ↔ t.val / 8 ≤ t.val % 8 :=
  (by decide +kernel : ∀ t : Fin grid0.N, cond2 (grid0.coords t) ↔ t.val / 8 ≤ t.val % 8)

/-- The result's condition: both grid coordinates at their last value. -/
abbrev cond3 (i : grid0.Coords) : Prop := k0_cond3 i = 1#1
/-- It holds at the last point only. -/
theorem hcond3 : ∀ t : Fin cfg0.N, cond3 (grid0.coords t) ↔ t.val = 63 :=
  (by decide +kernel : ∀ t : Fin grid0.N, cond3 (grid0.coords t) ↔ t.val = 63)

/-- A point's grid coordinates are its quotient and remainder by 8. -/
theorem coords0 : ∀ t : Fin cfg0.N, ((grid0.coords t) 0).val = t.val / 8 :=
  (by decide +kernel : ∀ t : Fin grid0.N, ((grid0.coords t) 0).val = t.val / 8)
theorem coords1 : ∀ t : Fin cfg0.N, ((grid0.coords t) 1).val = t.val % 8 :=
  (by decide +kernel : ∀ t : Fin grid0.N, ((grid0.coords t) 1).val = t.val % 8)

/-! ## Where the windows are idle, and when the result is written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- The result window is idle wherever the body does not store into it, -/
theorem idleAt4 : ∀ t : Fin cfg0.N, ¬cond3 (grid0.coords t) → cfg0.idle 4 (grid0.coords t) = true := by decide +kernel
/-- is not written back there, -/
theorem noFlush4 : ∀ t : Fin cfg0.N, ¬cond3 (grid0.coords t) → (cfg0.win 4).flush t = false := by decide +kernel
/-- and is live at the last point. -/
theorem liveAt4 : ∀ t : Fin cfg0.N, cond3 (grid0.coords t) → cfg0.idle 4 (grid0.coords t) = false := by decide +kernel

/-! ## The staging buffers at a point, and the scratch -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The running scalar's buffer: a scratch of the kernel's own, kept from point to point. -/
abbrev scM : Memref sig .tc .vmem S1x1 .f32 := Memref.whole cc0_scratch0

/-- What the launch hands the region besides the windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KI.Data.lean ====
/-
  The pipeline's proof data. The body keeps one running scalar in its scratch: point 0 resets it and adds the first
  tile's sum; a later point `t` adds its tile's sum exactly when `t / 8 ≤ t % 8` and otherwise leaves it alone;
  the last point copies it into the result's staging buffer, which is written back there and nowhere else.
  `accAt` is that scalar after each point, as the body's own arithmetic (its payloads) of the four input blocks;
  the region's invariant carries the scratch at `accAt` from point to point. The argument array is read by two
  windows, which hold it at the two halves of the full share.
-/
import proofs.«133229_j43258910605422_1_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile's sum at point `t`: the body's arithmetic of the four input blocks there and the point's coordinates. -/
def tileAt (c : Dev nD) (t : Fin cfg0.N) : F .f32 :=
  k0_pay3 (BitVec.ofNat 32 ((grid0.coords t) 0).val) (BitVec.ofNat 32 ((grid0.coords t) 1).val)
    (iblk m c 0 t) (iblk m c 1 t) (iblk m c 2 t) (iblk m c 3 t)

/-- THE ACCUMULATION: the scratch after the body at position `n`. -/
def accAt (c : Dev nD) : (n : ℕ) → n < cfg0.N → Vec F S1x1 .f32
  | 0, hn => k0_pay2 (k0_pay1 (F := F)) (tileAt m c ⟨0, hn⟩)
  | n + 1, hn =>
    if (n + 1) / 8 ≤ (n + 1) % 8 then k0_pay2 (accAt c n (Nat.lt_of_succ_lt hn)) (tileAt m c ⟨n + 1, hn⟩)
    else accAt c n (Nat.lt_of_succ_lt hn)

theorem accAt_zero (c : Dev nD) (hn : 0 < cfg0.N) :
    accAt m c 0 hn = k0_pay2 (k0_pay1 (F := F)) (tileAt m c ⟨0, hn⟩) := rfl

/-- At a point on or above the diagonal (not the first) the tile's sum is added to what the point before left. -/
theorem accAt_add (c : Dev nD) (t : Fin cfg0.N) (hz : t.val ≠ 0) (h : t.val / 8 ≤ t.val % 8) :
    accAt m c t.val t.isLt = k0_pay2 (accAt m c (t.val - 1) (Nat.lt_of_le_of_lt (Nat.sub_le _ _) t.isLt)) (tileAt m c t) := by
  obtain ⟨n, hn⟩ := t
  cases n with
  | zero => exact absurd rfl hz
  | succ n => exact (if_pos h).trans rfl

/-- Below the diagonal the scratch is what the point before left. -/
theorem accAt_keep (c : Dev nD) (t : Fin cfg0.N) (h : ¬t.val / 8 ≤ t.val % 8) :
    accAt m c t.val t.isLt = accAt m c (t.val - 1) (Nat.lt_of_le_of_lt (Nat.sub_le _ _) t.isLt) := by
  obtain ⟨n, hn⟩ := t
  cases n with
  | zero => exact absurd (show (0 : ℕ) / 8 ≤ 0 % 8 by decide) h
  | succ n => exact (if_neg h).trans rfl

/-- The region's invariant before position `n`: before the first point what the launch hands over (the scratch at
    anything, the generator register); afterwards the scratch at what the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

/-- The shares: the two windows on the argument hold its halves; the squared norms' windows and the result hold theirs whole. -/
theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl

end Cert.KernelIdeal.Hand

end
-- ==== Proof.KI.Runs.lean ====
/-
  The kernel body run once per control case, on any whole staging buffers. The three branches of the body are
  decided by the grid point, and the 64 points meet four combinations: the first point (reset, then the tile's sum
  added), a later point on or above the diagonal (the tile's sum added to the scratch), a point below the diagonal
  (nothing touched), and the last point (the tile's sum added, then the scratch copied into the result's buffer).
  Each run hands back the input buffers as it found them and the scratch — and at the last point the result's
  buffer — at the body's own arithmetic of what it loaded.
-/
import proofs.«133229_j43258910605422_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two rectangle, as the constant function. -/
theorem zeros2 : (![0, 0] : Fin 2 → ℕ) = fun _ => 0 := by funext a; fin_cases a <;> rfl

set_option maxHeartbeats 1000000 in
/-- The first point: the scratch, at anything, is reset and the tile's sum added; the result's buffer is untouched. -/
theorem run_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : cond1 i) (h2 : cond2 i) (h3 : ¬cond3 i) (x0 : Vec F S512x1024 .f32) (x1 : Vec F S512x1024 .f32) (x2 : Vec F S512x1 .f32) (x3 : Vec F S1x512 .f32) (y4 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ (∃ s, owns (c : Thread nD τ) arg7 fullShare s)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
              ∗ owns (c : Thread nD τ) arg7 fullShare (k0_pay2 (k0_pay1 (F := F)) (k0_pay3 (BitVec.ofNat 32 (i 0).val) (BitVec.ofNat 32 (i 1).val) x0 x1 x2 x3))) -∗ K ⟨⟩))
      ⊢ wp frame (wpE (defs₀ (F := F)) Variants.none c none) E (cc0__interclass_kernel i arg2 harg2 arg3 harg3 arg4 harg4 arg5 harg5 arg6 harg6 arg7 harg7) K := by
  simp only [cc0__interclass_kernel_eq_skeleton]; unfold cc0__interclass_kernel_skel
  unfold owns
  iintro ⟨⟨%f0, %hf0, H0⟩, ⟨%f1, %hf1, H1⟩, ⟨%f2, %hf2, H2⟩, ⟨%f3, %hf3, H3⟩, ⟨%f4, %hf4, H4⟩, ⟨%s, %f5, -, H5⟩, Hk⟩
  obtain rfl := harg2.eq_unread hf0; obtain rfl := harg3.eq_unread hf1; obtain rfl := harg4.eq_unread hf2
  obtain rfl := harg5.eq_unread hf3
  sl_exec (disch := first | exact h1 | exact h2 | exact h3)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  iexists _; isplitr
  swap
  · iexact H5
  ipureintro
  rw [View.read_writes_eq_canon _ _ _ (fun y => ⟨_, List.Mem.head _, View.mem_set_unit_zero zeros2 inb_S1x1_S1x1_0_0 y⟩)]
  sl_unfold_words
  rw [View.canon_cons_unit_zero (S := S1x1) zeros2, View.readCov_unit_zero (S := S1x1) _ zeros2]
  simp only [View.readAt_eq_ld, harg2.read_unread, harg3.read_unread, harg4.read_unread, harg5.read_unread,
    harg7.read_unread, View.ld_unit_zero (S := S512x1024) zeros2, View.ld_unit_zero (S := S512x1) zeros2,
    View.ld_unit_zero (S := S1x512) zeros2, View.ld_unit_zero (S := S1x1) zeros2]

set_option maxHeartbeats 1000000 in
/-- A later point on or above the diagonal, not the last: the tile's sum is added to the scratch. -/
theorem run_add (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : ¬cond1 i) (h2 : cond2 i) (h3 : ¬cond3 i) (x0 : Vec F S512x1024 .f32) (x1 : Vec F S512x1024 .f32) (x2 : Vec F S512x1 .f32) (x3 : Vec F S1x512 .f32) (y4 : Vec F S1x1 .f32) (s : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
              ∗ owns (c : Thread nD τ) arg7 fullShare (k0_pay2 s (k0_pay3 (BitVec.ofNat 32 (i 0).val) (BitVec.ofNat 32 (i 1).val) x0 x1 x2 x3))) -∗ K ⟨⟩))
      ⊢ wp frame (wpE (defs₀ (F := F)) Variants.none c none) E (cc0__interclass_kernel i arg2 harg2 arg3 harg3 arg4 harg4 arg5 harg5 arg6 harg6 arg7 harg7) K := by
  simp only [cc0__interclass_kernel_eq_skeleton]; unfold cc0__interclass_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg7.eq_unread hf5
  sl_exec (disch := first | exact h1 | exact h2 | exact h3)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  iexists _; isplitr
  swap
  · iexact H5
  ipureintro
  rw [View.read_writes_eq_canon _ _ _ (fun y => ⟨_, List.mem_singleton_self _, View.mem_set_unit_zero zeros2 inb_S1x1_S1x1_0_0 y⟩)]
  sl_unfold_words
  rw [View.canon_unit_zero zeros2]
  simp only [View.readAt_eq_ld, harg2.read_unread, harg3.read_unread, harg4.read_unread, harg5.read_unread,
    harg7.read_unread, View.ld_unit_zero (S := S512x1024) zeros2, View.ld_unit_zero (S := S512x1) zeros2,
    View.ld_unit_zero (S := S1x512) zeros2, View.ld_unit_zero (S := S1x1) zeros2]

/-- A point below the diagonal: the body touches nothing. -/
theorem run_skip (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : ¬cond1 i) (h2 : ¬cond2 i) (h3 : ¬cond3 i) (x0 : Vec F S512x1024 .f32) (x1 : Vec F S512x1024 .f32) (x2 : Vec F S512x1 .f32) (x3 : Vec F S1x512 .f32) (y4 : Vec F S1x1 .f32) (s : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4 ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y4
              ∗ owns (c : Thread nD τ) arg7 fullShare s) -∗ K ⟨⟩))
      ⊢ wp frame (wpE (defs₀ (F := F)) Variants.none c none) E (cc0__interclass_kernel i arg2 harg2 arg3 harg3 arg4 harg4 arg5 harg5 arg6 harg6 arg7 harg7) K := by
  simp only [cc0__interclass_kernel_eq_skeleton]; unfold cc0__interclass_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  sl_exec (disch := first | exact h1 | exact h2 | exact h3)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  iexists _; isplitr
  · ipureintro; exact hf5
  iexact H5

set_option maxHeartbeats 1000000 in
/-- The last point: the tile's sum is added to the scratch, and the scratch copied into the result's buffer (found at anything). -/
theorem run_last (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : ¬cond1 i) (h2 : cond2 i) (h3 : cond3 i) (x0 : Vec F S512x1024 .f32) (x1 : Vec F S512x1024 .f32) (x2 : Vec F S512x1 .f32) (x3 : Vec F S1x512 .f32) (s : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ y4, owns (c : Thread nD τ) arg6 fullShare y4) ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay2 s (k0_pay3 (BitVec.ofNat 32 (i 0).val) (BitVec.ofNat 32 (i 1).val) x0 x1 x2 x3))
              ∗ owns (c : Thread nD τ) arg7 fullShare (k0_pay2 s (k0_pay3 (BitVec.ofNat 32 (i 0).val) (BitVec.ofNat 32 (i 1).val) x0 x1 x2 x3))) -∗ K ⟨⟩))
      ⊢ wp frame (wpE (defs₀ (F := F)) Variants.none c none) E (cc0__interclass_kernel i arg2 harg2 arg3 harg3 arg4 harg4 arg5 harg5 arg6 harg6 arg7 harg7) K := by
  simp only [cc0__interclass_kernel_eq_skeleton]; unfold cc0__interclass_kernel_skel
  unfold owns
  iintro ⟨⟨%f0, %hf0, H0⟩, ⟨%f1, %hf1, H1⟩, ⟨%f2, %hf2, H2⟩, ⟨%f3, %hf3, H3⟩, ⟨%y4, %f4, -, H4⟩, ⟨%f5, %hf5, H5⟩, Hk⟩
  obtain rfl := harg2.eq_unread hf0; obtain rfl := harg3.eq_unread hf1; obtain rfl := harg4.eq_unread hf2
  obtain rfl := harg5.eq_unread hf3; obtain rfl := harg7.eq_unread hf5
  sl_exec (disch := first | exact h1 | exact h2 | exact h3)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    swap
    · iexact H4
    ipureintro
    rw [View.read_writes_eq_canon _ _ _ (fun y => ⟨_, List.mem_singleton_self _, View.mem_set_unit_zero zeros2 inb_S1x1_S1x1_0_0 y⟩)]
    sl_unfold_words
    rw [View.canon_unit_zero zeros2, View.readCov_unit_zero (S := S1x1) _ zeros2]
    simp only [View.readAt_eq_ld, harg2.read_unread, harg3.read_unread, harg4.read_unread, harg5.read_unread,
    harg7.read_unread, View.ld_unit_zero (S := S512x1024) zeros2, View.ld_unit_zero (S := S512x1) zeros2,
    View.ld_unit_zero (S := S1x512) zeros2, View.ld_unit_zero (S := S1x1) zeros2]
  iexists _; isplitr
  swap
  · iexact H5
  ipureintro
  sl_unfold_words
  rw [View.read_writes_eq_canon _ _ _ (fun y => ⟨_, List.mem_singleton_self _, View.mem_set_unit_zero zeros2 inb_S1x1_S1x1_0_0 y⟩)]
  rw [View.canon_unit_zero zeros2]
  simp only [View.readAt_eq_ld, harg2.read_unread, harg3.read_unread, harg4.read_unread, harg5.read_unread,
    harg7.read_unread, View.ld_unit_zero (S := S512x1024) zeros2, View.ld_unit_zero (S := S512x1) zeros2,
    View.ld_unit_zero (S := S1x512) zeros2, View.ld_unit_zero (S := S1x1) zeros2]

end Cert.KernelIdeal.Hand

end
-- ==== Proof.KI.Body.lean ====
/-
  The body obligation of the region, at every grid point. Each input window's current staging buffer holds its
  block at every point, fetched there or not. The 64 points fall into four cases by the three branch conditions:
  the first point (the scratch reset, the first tile's sum added), a later point on or above the diagonal (the
  tile's sum added), a point below the diagonal (nothing touched), and the last point (the tile's sum added and the
  scratch copied into the result's buffer). In each case the body's run hands back the input buffers as found and
  the scratch at the accumulation's value after the point; the result's buffer is left as found wherever the
  window is idle, and holds the accumulation at the last point.
-/
import proofs.«133229_j43258910605422_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the input windows' buffers hold when the body is called -/

/-- An input window's current staging buffer holds its block at every point, fetched there or not: unfetched, the
    block index has not moved since the point before, and the body leaves the block in place. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)

theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)

theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-! ## The accumulation at the first point -/

/-- At the first point the scratch is reset and the first tile's sum added. -/
theorem accAt_first (c : Dev nD) (t : Fin cfg0.N) (hz : t.val = 0) :
    accAt m c t.val t.isLt = k0_pay2 (k0_pay1 (F := F)) (tileAt m c t) := by
  obtain ⟨n, hn⟩ := t
  cases n with
  | zero => rfl
  | succ n => exact absurd hz (Nat.succ_ne_zero n)

/-! ## The body obligation, at a generic point -/

/-- What the body is called with at point `t`: the invariant, what the core owes, and the five windows' current
    staging buffers one by one. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The inputs' buffers hold their blocks; the closed forms of the three conditions say
    which of the four cases the point is in, and that case's run applies. The invariant hands the run the scratch
    (at anything at the first point, at what the point before left afterwards) and takes it back at the
    accumulation after this point; the result's buffer comes back as found where the window is idle, and at the
    accumulation at the last point; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  rw [show (dats m 0 c).leavesExact 2 t = owns (c : Thread nD τ) (ms2 t) fullShare ((dats m 0 c).after 2 t) from by
    unfold Dat.leavesExact; rw [liveAt2 t], after2]
  rw [show (dats m 0 c).leavesExact 3 t = owns (c : Thread nD τ) (ms3 t) fullShare ((dats m 0 c).after 3 t) from by
    unfold Dat.leavesExact; rw [liveAt3 t], after3]
  by_cases hz : t.val = 0
  · -- the first point: reset, then the tile's sum added
    have h1 : cond1 (grid0.coords t) := (hcond1 t).mpr hz
    have h2 : cond2 (grid0.coords t) := (hcond2 t).mpr (by omega)
    have h3 : ¬cond3 (grid0.coords t) := fun h => by have := (hcond3 t).mp h; omega
    rw [Dat.leavesExact_idle (dats m 0 c) 4 t (idleAt4 t h3) (noFlush4 t h3)]
    rw [accAt_first m c t hz]
    unfold tileAt
    rw [PhiS_castSucc m c t, PhiS_zero m c _ _ hz, PhiA_eq]
    iintro ⟨⟨HS, Hg⟩, Ho, ⟨%d0, H0⟩, ⟨%d1, H1⟩, ⟨%d2, H2⟩, ⟨%d3, H3⟩, ⟨%d4, H4⟩⟩
    iapply (run_first c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) ((dats m 0 c).before 4 t d4) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    iexists d4; iexact H4
  · have h1 : ¬cond1 (grid0.coords t) := fun h => hz ((hcond1 t).mp h)
    rw [PhiS_castSucc m c t, PhiS_pos m c _ _ hz]
    by_cases hl : t.val = 63
    · -- the last point: the tile's sum added, the scratch copied into the result's buffer
      have hd : t.val / 8 ≤ t.val % 8 := by omega
      have h2 : cond2 (grid0.coords t) := (hcond2 t).mpr hd
      have h3 : cond3 (grid0.coords t) := (hcond3 t).mpr hl
      rw [show (dats m 0 c).leavesExact 4 t = owns (c : Thread nD τ) (ms4 t) fullShare ((dats m 0 c).after 4 t) from by
        unfold Dat.leavesExact; rw [liveAt4 t h3], after4]
      rw [accAt_add m c t hz hd]
      unfold tileAt
      iintro ⟨⟨HS, Hg⟩, Ho, ⟨%d0, H0⟩, ⟨%d1, H1⟩, ⟨%d2, H2⟩, ⟨%d3, H3⟩, ⟨%d4, H4⟩⟩
      iapply (run_last c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]
        · iexact HS
        iexact Hg
      isplitl [Ho]; · iexact Ho
      isplitl [H0]; · iexact H0
      isplitl [H1]; · iexact H1
      isplitl [H2]; · iexact H2
      isplitl [H3]; · iexact H3
      iexact H4
    · have h3 : ¬cond3 (grid0.coords t) := fun h => hl ((hcond3 t).mp h)
      rw [Dat.leavesExact_idle (dats m 0 c) 4 t (idleAt4 t h3) (noFlush4 t h3)]
      by_cases hd : t.val / 8 ≤ t.val % 8
      · -- a later point on or above the diagonal: the tile's sum added
        have h2 : cond2 (grid0.coords t) := (hcond2 t).mpr hd
        rw [accAt_add m c t hz hd]
        unfold tileAt
        iintro ⟨⟨HS, Hg⟩, Ho, ⟨%d0, H0⟩, ⟨%d1, H1⟩, ⟨%d2, H2⟩, ⟨%d3, H3⟩, ⟨%d4, H4⟩⟩
        iapply (run_add c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) ((dats m 0 c).before 4 t d4) (accAt m c (t.val - 1) (Nat.lt_of_le_of_lt (Nat.sub_le _ _) t.isLt)) Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS Hg]
        · isplitl [HS]
          · iexact HS
          iexact Hg
        isplitl [Ho]; · iexact Ho
        isplitl [H0]; · iexact H0
        isplitl [H1]; · iexact H1
        isplitl [H2]; · iexact H2
        isplitl [H3]; · iexact H3
        iexists d4; iexact H4
      · -- a point below the diagonal: nothing touched
        have h2 : ¬cond2 (grid0.coords t) := fun h => hd ((hcond2 t).mp h)
        rw [accAt_keep m c t hd]
        iintro ⟨⟨HS, Hg⟩, Ho, ⟨%d0, H0⟩, ⟨%d1, H1⟩, ⟨%d2, H2⟩, ⟨%d3, H3⟩, ⟨%d4, H4⟩⟩
        iapply (run_skip c (grid0.coords t) (ms0 t) (hs0 t) (ms1 t) (hs1 t) (ms2 t) (hs2 t) (ms3 t) (hs3 t) (ms4 t) (hs4 t) scM (Memref.isWhole_whole _) h1 h2 h3 (iblk m c 0 t) (iblk m c 1 t) (iblk m c 2 t) (iblk m c 3 t) ((dats m 0 c).before 4 t d4) (accAt m c (t.val - 1) (Nat.lt_of_le_of_lt (Nat.sub_le _ _) t.isLt)) Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, HS⟩
        isplitl [HS Hg]
        · isplitl [HS]
          · iexact HS
          iexact Hg
        isplitl [Ho]; · iexact Ho
        isplitl [H0]; · iexact H0
        isplitl [H1]; · iexact H1
        isplitl [H2]; · iexact H2
        isplitl [H3]; · iexact H3
        iexists d4; iexact H4

/-- The body obligation of the region: the body's triple at every grid point, the windows taken together. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch. The kernel region is entered after the host lines that compute the squared norms, from the core's
  unscoped buffers at their contents there; the argument's buffer, which two windows read, is dealt to them as its
  two half shares; the region runs under the proof data of Data.lean; the one host line after the region reads the
  result's array and writes the scalar result; at the end the two half shares of the argument are what the final
  memory is read against, and the argument is found unchanged.
-/
import proofs.«133229_j43258910605422_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the five windows' arrays: the argument, the two reshaped squared norms, the result. -/
theorem arrBufs_eq (c : Dev nD) :
    (Pipeline.arrBufs spec0 c (V m c) : sProp 𝕄)
      = iprop((((c : Thread nD τ).loc main_arg0) ↦{fullShare} V m c main_arg0) ∗ (((c : Thread nD τ).loc main_v2) ↦{fullShare} V m c main_v2)
          ∗ (((c : Thread nD τ).loc main_v3) ↦{fullShare} V m c main_v3) ∗ (((c : Thread nD τ).loc main_v4) ↦{fullShare} V m c main_v4)) :=
  BI.bigSep_eq_bigSepL_of_eq [main_arg0, main_v2, main_v3, main_v4] (by decide) (by decide) _

/-- The pipeline's arrays at contents `G`, window by window: the argument at its two half shares. -/
theorem arrays_eq5 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v2) ↦{fullShare} G 2) ∗ (((c : Thread nD τ).loc main_v3) ↦{fullShare} G 3)
          ∗ (((c : Thread nD τ).loc main_v4) ↦{fullShare} G 4)) := by
  unfold Dat.arrays
  rw [bigSep_W0]
  rw [(arr_whole0 0).set_eq_univ, (arr_whole0 2).set_eq_univ, (arr_whole0 3).set_eq_univ, (arr_whole0 4).set_eq_univ]
  rfl

/-- ENTRY: the buffers behind the arrays, whole, make the pipeline's arrays at the entry contents. -/
theorem hsplit (c : Dev nD) : (Pipeline.arrBufs spec0 c (V m c) : sProp 𝕄) ⊢ (dats m 0 c).arrays ((dats m 0 c).arrAt · 0) := by
  rw [arrBufs_eq, arrays_eq5]
  iintro ⟨Ha, H2, H3, H4⟩
  ihave Ha := (pointsTo_share (PosShare.mem_left_op_right fullShare)).1 $$ Ha
  icases Ha with ⟨Hl, Hr⟩
  isplitl [Hl]; · iexact Hl
  isplitl [Hr]; · iexact Hr
  isplitl [H2]; · iexact H2
  isplitl [H3]; · iexact H3
  iexact H4

/-! ## The host line after the region -/

/-- The core's buffer contents at the region's exit, as far as the line after it looks: the result's array at what the
    write-back left, every other buffer as the region found it. -/
def Wx (c : Dev nD) : Valuation τ sig (Elt F) :=
  Function.update (V0 m c) (Proc.devRef .tc main_v4) ((dats m 0 c).arrAt 4 cfg0.N)

/-- The program's result buffer after that line. -/
def resOf (c : Dev nD) : Buf (Elt F) ((c : Thread nD τ).loc main_v5) :=
  StableHlo.after (List.flatten [hostOps1]) (Wx m c) (Proc.devRef .tc main_v5)

/-- The two buffers the line touches. -/
abbrev tailSet : Finset (DevRef τ sig) := {Proc.devRef .tc main_v4, Proc.devRef .tc main_v5}

theorem held_tail (c : Dev nD) (W : Valuation τ sig (Elt F)) :
    (StableHlo.held (c : Thread nD τ) tailSet W : sProp 𝕄)
      = iprop((((c : Thread nD τ).loc main_v4) ↦{fullShare} W (Proc.devRef .tc main_v4)) ∗ (((c : Thread nD τ).loc main_v5) ↦{fullShare} W (Proc.devRef .tc main_v5))) :=
  BI.bigSep_eq_bigSepL_of_eq [Proc.devRef .tc main_v4, Proc.devRef .tc main_v5] (by decide) (by decide) _

theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  subst hop
  exact Finset.Subset.refl _

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The line does not write the result's array. -/
theorem after_v4 (c : Dev nD) :
    StableHlo.after (List.flatten [hostOps1]) (Wx m c) (Proc.devRef .tc main_v4) = (dats m 0 c).arrAt 4 cfg0.N := by
  simp only [hostOps1, List.flatten_cons, List.flatten_nil, List.append_nil]
  after_results
  exact Function.update_self _ _ _

theorem Wx_v4 (c : Dev nD) : Wx m c (Proc.devRef .tc main_v4) = (dats m 0 c).arrAt 4 cfg0.N := Function.update_self _ _ _
theorem Wx_v5 (c : Dev nD) : Wx m c (Proc.devRef .tc main_v5) = V m c main_v5 :=
  Function.update_of_ne (by decide) _ _

/-- The unscoped buffers the region does not stage, after the line: the result buffer at `resOf`, the others untouched. -/
def restAfter (c : Dev nD) : sProp 𝕄 :=
  iprop((((c : Thread nD τ).loc main_v0) ↦{fullShare} V m c main_v0) ∗ (((c : Thread nD τ).loc main_cst) ↦{fullShare} V m c main_cst)
    ∗ (((c : Thread nD τ).loc main_v1) ↦{fullShare} V m c main_v1) ∗ (((c : Thread nD τ).loc main_v5) ↦{fullShare} resOf m c))

set_option backward.isDefEq.respectTransparency.types false in
/-- The line's step: holding the two buffers it touches, it runs to the continuation holding the result's array as it was
    and the result buffer at `resOf`. -/
theorem tail_step (c : Dev nD) (K : PUnit → sProp 𝕄) :
    iprop(boundary (c : Thread nD τ) ∗ (((c : Thread nD τ).loc main_v4) ↦{fullShare} (dats m 0 c).arrAt 4 cfg0.N)
        ∗ (((c : Thread nD τ).loc main_v5) ↦{fullShare} V m c main_v5))
      ⊢ iprop(((boundary (c : Thread nD τ) ∗ (((c : Thread nD τ).loc main_v4) ↦{fullShare} (dats m 0 c).arrAt 4 cfg0.N)
                ∗ (((c : Thread nD τ).loc main_v5) ↦{fullShare} resOf m c)) -∗ |={Set.univ}=> K ⟨⟩)
          -∗ wp frame (wpE (defs (F := F)) (Variants.lift Variants.none) (c : Thread nD τ) none) Set.univ (Pipeline.chain [StableHlo.seq hostOps1]) K) := by
  have h := Pipeline.wp_seqs_then (fun q => (cfgs q).toPCfg (Val := Elt F)) defs₀ Variants.none c tailSet [] (K := K) [hostOps1] tail_sub tail_fresh (Wx m c)
  rw [held_tail, held_tail, Wx_v4, Wx_v5, after_v4, Pipeline.chain_nil, wp_pure] at h
  exact h

/-- The line after the region, run from the region's exit. -/
theorem htail (c : Dev nD) (Q' : PUnit → sProp 𝕄) :
    iprop((iprop((dats m 0 c).arrays ((dats m 0 c).arrAt · cfg0.N) ∗ restAfter m c) -∗ Q' ⟨⟩)
        ∗ boundary (c : Thread nD τ) ∗ (dats m 0 c).arrays ((dats m 0 c).arrAt · cfg0.N) ∗ Pipeline.unscopedRest spec0 c (V m c))
      ⊢ wp frame (wpE (defs (F := F)) (Variants.lift Variants.none) (c : Thread nD τ) none) Set.univ (Pipeline.chain [StableHlo.seq hostOps1]) Q' := by
  rw [arrays_eq5, unscopedRest0_eq]
  unfold restAfter
  iintro ⟨Hk, Hb, ⟨Hl, Hr, H2, H3, H4⟩, ⟨H0, Hc, H1, H5⟩⟩
  iapply (tail_step m c Q') $$ [Hb H4 H5]
  · isplitl [Hb]; · iexact Hb
    isplitl [H4] <;> iassumption
  iintro ⟨Hb, H4, H5⟩
  imodintro
  iapply Hk
  isplitl [Hl Hr H2 H3 H4]
  · isplitl [Hl]; · iexact Hl
    isplitl [Hr]; · iexact Hr
    isplitl [H2]; · iexact H2
    isplitl [H3]; · iexact H3
    iexact H4
  isplitl [H0]; · iexact H0
  isplitl [Hc]; · iexact Hc
  isplitl [H1]; · iexact H1
  iexact H5

/-! ## The run -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back the scratch at some contents and the generator register. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

set_option backward.isDefEq.respectTransparency.types false in
/-- THE RUN, from the body obligation: every weakly fair execution of the host program terminates, with the result
    buffer at `resOf` and the argument unchanged. -/
theorem run_main_of (hbody : ∀ c, BodyObligation (dats (F := F) m 0 c) (defs₀ (F := F)) Variants.none () Set.univ) :
    θ_run (defs (F := F)) (onTc (τ := τ) (main (F := F))) ⟨m, fun _ => 0, ρ⟩ (fun r => ∀ c : Dev nD,
      r.2.mem ((c.tc : Thread nD τ).loc main_v5) = resOf m c
      ∧ r.2.mem ((c.tc : Thread nD τ).loc main_arg0) = m ((c.tc : Thread nD τ).loc main_arg0)) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := restAfter m)
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => s.mem ((c.tc : Thread nD τ).loc main_v5) = resOf m c)
    (hY := fun c s' => by
      unfold restAfter
      iintro ⟨-, ⟨-, -, -, H5⟩, HSI⟩
      imodintro
      icombine HSI H5 gives %h
      isplitr; · ipureintro; exact Buf.eq_of_forall_mem_univ h
      iexact HSI)
    (hQ := fun s h c => ⟨(h c).2.2, ((h c).1 0).trans (((dats m 0 c).arrAt_in 0 rfl _).trans ((A_eq m c 0).trans (V_main_arg0 m c)))⟩)

end Cert.KernelIdeal.Hand

end
-- ==== Proof.KI.Payload.lean ====
/-
  The body's arithmetic read at the ideal instance, over plain variables. With floats extended reals and every
  operation exact, the tile's scalar is the sum over the 512 × 512 entries `(p, q)` of the hinge term built from the
  row block's and column block's inner product, the two squared norms and the strict comparison of the global row
  and column indices; the scratch update adds that scalar to the scratch's one entry; the reset value is zero.
-/
import proofs.«133229_j43258910605422_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.HandValue

open Cert.KernelIdeal Cert.KernelIdeal.Gen Idealize.ShloMosaic Idealize.ShloMosaic.ValueIdx

/-- One entry of tile `(i, j)`: row `p` of the row block against row `q` of the column block. -/
def entry (i j : Fin 8) (x0 x1 : FVec Ideal S512x1024 .f32) (x2 : FVec Ideal S512x1 .f32) (x3 : FVec Ideal S1x512 .f32)
    (p q : Fin 512) : EReal :=
  if 512 * i.val + p.val < 512 * j.val + q.val then
    max 0 (Ideal.ofBits .f32 0x38D1B717#32
      - Ideal.sqrt (max (x2 (ix2 p 0) + x3 (ix2 0 q) - Ideal.ofBits .f32 0x40000000#32 * ∑ k : Fin 1024, x0 (ix2 p k) * x1 (ix2 q k)) 0))
  else 0

/-! ## Layout: a column broadcast, and the index set of a tile with a leading unit axis -/

/-- A column broadcast over many columns reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index set of a `[1, a, b]` array is the product of its last two coordinate ranges. -/
def idxEquiv1ab {a b : ℕ} : (⟨3, ![1, a, b]⟩ : Shape).Idx ≃ Fin a × Fin b where
  toFun i := (i 1, i 2)
  invFun p := ix3 (0 : Fin 1) p.1 p.2
  left_inv i := by
    funext d
    match d with
    | ⟨0, _⟩ => exact Subsingleton.elim (α := Fin 1) _ _
    | ⟨1, _⟩ => rfl
    | ⟨2, _⟩ => rfl
  right_inv _ := rfl

theorem sum_idx1ab {M : Type*} [AddCommMonoid M] {a b : ℕ} (f : (⟨3, ![1, a, b]⟩ : Shape).Idx → M) :
    ∑ i, f i = ∑ p : Fin a, ∑ q : Fin b, f (ix3 (0 : Fin 1) p q) := by
  rw [← Equiv.sum_comp (idxEquiv1ab (a := a) (b := b)).symm f, Fintype.sum_prod_type]
  rfl

/-- The total sum of a tile, cast to `[1, 512, 512]`, reduced over its two tile axes and read at its one entry. -/
theorem total_eq (w : FVec Ideal S512x512 .f32) :
    extractAt ![0, 0, 0]
      (shapeCast S1x1x1
        (multiReduction (F := Ideal) .add [1, 2] S1 (shapeCast S1x512x512 w shapeCasts_S512x512_S1x512x512) 0x00000000#32
          reduces_S1x512x512_S1 (.inl rfl) rfl) shapeCasts_S1_S1x1x1) inpos_S1x1x1_p0_0_0
      = ∑ p : Fin 512, ∑ q : Fin 512, w (ix2 p q) := by
  refine (Ideal.multiReduction_add_total (shapeCast S1x512x512 w shapeCasts_S512x512_S1x512x512) 0x00000000#32
    reduces_S1x512x512_S1 (fun b => by match b with | ⟨0, _⟩ => rfl) (.inl rfl) rfl _).trans ?_
  rw [sum_idx1ab]
  refine Finset.sum_congr rfl fun p _ => Finset.sum_congr rfl fun q _ => ?_
  exact shapeCast_ab_1ab_apply w shapeCasts_S512x512_S1x512x512 0 p q

/-! ## The product of the row block with the column block's transpose, at an entry -/

theorem lhs_gram_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_gram_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_gram_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_gram_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- Entry `(p, q)` of the product is the inner product of row `p` of the left block with row `q` of the right block. -/
theorem gram_apply (a b : FVec Ideal S512x1024 .bf16) (p q : Fin 512) :
    matmul dot_S512x1024_S512x1024_S512x512_1_1_0_0_n_n none a b (constant (F := Ideal) S512x512 .f32 0x00000000#32) (ix2 p q)
      = ∑ k : Fin 1024, a (ix2 p k) * b (ix2 q k) := by
  simp only [matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 p q) ((ValueIdx.contrEquiv1 dot_S512x1024_S512x1024_S512x512_1_1_0_0_n_n 1024 rfl rfl).symm k) = ix2 p k := funext fun c => Fin.ext (by
    match c with
    | ⟨0, _⟩ => exact lhs_gram_0 _ _
    | ⟨1, _⟩ => exact (lhs_gram_1 _ _).trans hk)
  have er : dot_S512x1024_S512x1024_S512x512_1_1_0_0_n_n.rhsIdx (ix2 p q) ((ValueIdx.contrEquiv1 dot_S512x1024_S512x1024_S512x512_1_1_0_0_n_n 1024 rfl rfl).symm k) = ix2 q k := funext fun c => Fin.ext (by
    match c with
    | ⟨0, _⟩ => exact rhs_gram_0 _ _
    | ⟨1, _⟩ => exact (rhs_gram_1 _ _).trans hk)
  rw [el, er]

/-! ## The comparison of the global row and column indices, at an entry -/

theorem word_toNat (i : Fin 8) (p : Fin 512) :
    (IntOp.addi (Scalar.muli (BitVec.ofNat 32 i.val) 512#32) (BitVec.ofNat 32 p.val)).toNat = 512 * i.val + p.val := by
  have hi := i.isLt
  have hp := p.isLt
  show (BitVec.ofNat 32 i.val * 512#32 + BitVec.ofNat 32 p.val).toNat = _
  simp only [BitVec.toNat_add, BitVec.toNat_mul, BitVec.toNat_ofNat]
  omega

/-- The mask's bit at `(p, q)` is set exactly when global row `512 i + p` is strictly before global column `512 j + q`. -/
theorem mask_iff (i j : Fin 8) (p q : Fin 512) :
    cmpi .slt
        (addi (broadcast S512x512 (Scalar.muli (BitVec.ofNat 32 i.val) 512#32)) (iota .tc S512x512 32 [0] iota_S512x512_d0_w32))
        (addi (broadcast S512x512 (Scalar.muli (BitVec.ofNat 32 j.val) 512#32)) (iota .tc S512x512 32 [1] iota_S512x512_d1_w32))
        (ix2 p q) = 1#1
      ↔ 512 * i.val + p.val < 512 * j.val + q.val := by
  have hi := i.isLt
  have hj := j.isLt
  have hp := p.isLt
  have hq := q.isLt
  show IntOp.cmpi .slt
      (IntOp.addi (Scalar.muli (BitVec.ofNat 32 i.val) 512#32) (iota .tc S512x512 32 [0] iota_S512x512_d0_w32 (ix2 p q)))
      (IntOp.addi (Scalar.muli (BitVec.ofNat 32 j.val) 512#32) (iota .tc S512x512 32 [1] iota_S512x512_d1_w32 (ix2 p q))) = 1#1 ↔ _
  rw [iota_single_apply, iota_single_apply]
  show IntOp.cmpi .slt
      (IntOp.addi (Scalar.muli (BitVec.ofNat 32 i.val) 512#32) (BitVec.ofNat 32 p.val))
      (IntOp.addi (Scalar.muli (BitVec.ofNat 32 j.val) 512#32) (BitVec.ofNat 32 q.val)) = 1#1 ↔ _
  rw [StableHlo.Predicate.slt_iff_toNat (by rw [word_toNat]; omega) (by rw [word_toNat]; omega), word_toNat, word_toNat]

/-- A square root at an index is the square root of the element. -/
theorem sqrt_apply {s : Shape} {φ : FTy} (a : FVec Ideal s φ) (i : s.Idx) : sqrt a i = Ideal.sqrt (a i) := rfl

/-- The tile's scalar is the sum of its entries. -/
theorem pay3_eq (i j : Fin 8) (x0 x1 : FVec Ideal S512x1024 .f32) (x2 : FVec Ideal S512x1 .f32) (x3 : FVec Ideal S1x512 .f32) :
    k0_pay3 (F := Ideal) (BitVec.ofNat 32 i.val) (BitVec.ofNat 32 j.val) x0 x1 x2 x3
      = ∑ p : Fin 512, ∑ q : Fin 512, entry i j x0 x1 x2 x3 p q := by
  unfold k0_pay3
  refine (total_eq _).trans ?_
  refine Finset.sum_congr rfl fun p _ => Finset.sum_congr rfl fun q _ => ?_
  unfold entry
  rw [select_apply]
  by_cases h : 512 * i.val + p.val < 512 * j.val + q.val
  · rw [(mask_iff i j p q).mpr h, select_one, if_pos h]
    rw [maximumf_apply, broadcast_apply, subf_apply, broadcast_apply, sqrt_apply, select_apply,
      (mask_iff i j p q).mpr h, select_one, maximumf_apply, broadcast_apply, subf_apply, addf_apply, mulf_apply,
      broadcast_apply, gram_apply, shapeCast_self, shapeCast_self, broadcastTo_a1_ab_apply, broadcastTo_1b_ab_apply]
    simp only [truncf_apply, Ideal.ofBits_def, Ideal.ofBits_zero_f32]
  · rw [eq_zero_of_ne_one (mt (mask_iff i j p q).mp h), select_zero, if_neg h, broadcast_apply]
    exact Ideal.ofBits_zero_f32

/-- The scratch update adds the scalar to the scratch's one entry. -/
theorem pay2_eq (s : FVec Ideal S1x1 .f32) (v : Ideal .f32) :
    k0_pay2 (F := Ideal) s v = fun _ => s (ix2 0 0) + v := by
  unfold k0_pay2
  show shapeCast S1x1 (addf s (broadcast S1x1 v)) shapeCasts_S1x1_S1x1 = _
  rw [shapeCast_self]
  funext y
  obtain ⟨a, b, rfl⟩ : ∃ (a : Fin 1) (b : Fin 1), y = ix2 a b := ⟨y 0, y 1, eq_ix2 y⟩
  obtain rfl : a = 0 := Subsingleton.elim _ _
  obtain rfl : b = 0 := Subsingleton.elim _ _
  rw [addf_apply, broadcast_apply]

/-- The reset value is zero. -/
theorem pay1_eq : k0_pay1 (F := Ideal) = fun _ => (0 : EReal) := by
  unfold k0_pay1
  show shapeCast S1x1 (broadcast S1x1 (Scalar.ofBits (F := Ideal) .f32 0x00000000#32)) shapeCasts_S1x1_S1x1 = _
  rw [shapeCast_self]
  funext y
  rw [broadcast_apply]
  exact Ideal.ofBits_zero_f32

end Cert.KernelIdeal.HandValue

end
-- ==== Proof.Spec.lean ====
/-
  The mathematics both programs compute, stated once over a plain matrix of extended reals.

  For centres `a : Fin 4096 → Fin 1024 → EReal` the loss is the sum over ordered pairs `(P, Q)` of
  `hinge a P Q`: for `P < Q` the positive part of `margin - sqrt (max (|a_P|² + |a_Q|² - 2 ⟨a_P, a_Q⟩) 0)`,
  and `0` for `P ≥ Q`. The kernel walks the 8 × 8 grid of 512 × 512 tiles in row-major order and adds a
  tile's sum to a running scalar only when the tile's row index is at most its column index; the tiles it skips
  lie strictly below the diagonal, where every entry is `0`, so the running scalar after the last tile is the
  sum over all pairs (`accR_last`).
-/
import Idealize.ShloMosaic.PureOps.Ideal
import Idealize.ShloMosaic.PureOps.Ideal.Laws

noncomputable section

namespace Cert.Spec

open Idealize.ShloMosaic

/-- Row `p` of tile `i` as a row of the whole matrix. -/
def row (i : Fin 8) (p : Fin 512) : Fin 4096 := ⟨512 * i.val + p.val, by omega⟩

/-- The squared norm of centre `P`. -/
def sqn (a : Fin 4096 → Fin 1024 → EReal) (P : Fin 4096) : EReal := ∑ k : Fin 1024, a P k * a P k

/-- The inner product of centres `P` and `Q`. -/
def gram (a : Fin 4096 → Fin 1024 → EReal) (P Q : Fin 4096) : EReal := ∑ k : Fin 1024, a P k * a Q k

/-- The clamped squared distance `max (|a_P|² + |a_Q|² - 2 ⟨a_P, a_Q⟩) 0` (the literal is the float `2`). -/
def dist2 (a : Fin 4096 → Fin 1024 → EReal) (P Q : Fin 4096) : EReal :=
  max (sqn a P + sqn a Q - Ideal.ofBits .f32 0x40000000#32 * gram a P Q) 0

/-- One pair's term: the hinge of the margin (the float nearest `1e-4`) over the distance above the diagonal, zero elsewhere. -/
def hinge (a : Fin 4096 → Fin 1024 → EReal) (P Q : Fin 4096) : EReal :=
  if P.val < Q.val then max 0 (Ideal.ofBits .f32 0x38D1B717#32 - Ideal.sqrt (dist2 a P Q)) else 0

/-- The loss: the sum over all ordered pairs. -/
def total (a : Fin 4096 → Fin 1024 → EReal) : EReal := ∑ P : Fin 4096, ∑ Q : Fin 4096, hinge a P Q

/-- The sum over one 512 × 512 tile. -/
def tile (a : Fin 4096 → Fin 1024 → EReal) (i j : Fin 8) : EReal :=
  ∑ p : Fin 512, ∑ q : Fin 512, hinge a (row i p) (row j q)

/-- The running scalar after grid point `n` (row-major: point `n` is tile `(n / 8, n % 8)`): reset to zero and the
    first tile added at point `0`; afterwards a tile is added exactly when its row index is at most its column index. -/
def accR (a : Fin 4096 → Fin 1024 → EReal) : ℕ → EReal
  | 0 => 0 + tile a 0 0
  | n + 1 =>
    if (n + 1) / 8 ≤ (n + 1) % 8 then
      accR a n + tile a ⟨(n + 1) / 8 % 8, Nat.mod_lt _ (by decide)⟩ ⟨(n + 1) % 8, Nat.mod_lt _ (by decide)⟩
    else accR a n

end Cert.Spec

end
-- ==== Proof.KI.Value.lean ====
/-
  The running scalar, read at the ideal instance. With floats extended reals and every operation exact, the scratch's
  one entry after grid point `n` is the specification's running sum `Cert.Spec.accR` of the argument matrix.

  The steps. The host lines before the region square the argument entry by entry, sum each row from zero and reshape
  the 4096 row sums into a column and into a row: entry `P` of either is centre `P`'s squared norm. Point `t` is tile
  `(t / 8, t % 8)`: its row block holds centres `512 (t / 8) + p`, its column block centres `512 (t % 8) + q`, and the
  two blocks of squared norms hold those centres' squared norms. So each entry of the body's tile is the pair's hinge
  term, the tile's scalar is the specification's tile sum, and the recurrence of the running scalar (zero plus the
  first tile at point 0; afterwards a tile added exactly when `n / 8 ≤ n % 8`) is the specification's own.
-/
import proofs.«133229_j43258910605422_1_alg».proof.Proof.KI.Data
import proofs.«133229_j43258910605422_1_alg».proof.Proof.KI.Payload
import proofs.«133229_j43258910605422_1_alg».proof.Proof.Spec
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ)

/-- The argument as a plain matrix: centre `P`'s coordinate `k`. -/
abbrev argMat (c : Dev nD) : Fin 4096 → Fin 1024 → EReal := fun P k => m ((c : Thread nD τ).loc main_arg0) (ix2 P k)

/-! ## The squared norms the host lines compute -/

theorem hred : S4096x1024.Reduces [1] S4096 := by decide

/-- The host's row sums of squares: entry `P` of the rank-one array is the sum of the squares of row `P`. -/
theorem rowSum_apply (x : FVec Ideal S4096x1024 .f32) (P : Fin 4096) :
    Host.reduceAdd (F := Ideal) (mulf x x) (constant (F := Ideal) S_ .f32 0x00000000#32) reducesTo_S4096x1024_S4096_d1 h_S_ (ix1 P)
      = ∑ k : Fin 1024, x (ix2 P k) * x (ix2 P k) := by
  refine (hostReduceAdd_apply _ _ _ _ _).trans ?_
  refine (Ideal.hostReduceAdd_single reducesTo_S4096x1024_S4096_d1 hred _ _ _).trans ?_
  rw [constant_apply, Ideal.ofBits_zero_f32, zero_add]
  show ∑ k : Fin 1024, mulf x x (hred.lift (ix1 P) k) = _
  refine Finset.sum_congr rfl fun k _ => ?_
  have hk : hred.lift (ix1 P) k = ix2 P k := by
    funext a; apply Fin.ext
    match a with
    | ⟨0, _⟩ => rfl
    | ⟨1, _⟩ => rfl
  rw [hk, mulf_apply]

/-- The column of squared norms as the region finds it: entry `(P, 0)` is centre `P`'s squared norm. -/
theorem sqnCol_apply (c : Dev nD) (P : Fin 4096) :
    (V m c main_v2 : S4096x1.Idx → EReal) (ix2 P 0) = Cert.Spec.sqn (argMat m c) P := by
  have e : (V m c main_v2 : S4096x1.Idx → EReal)
      = shapeCast S4096x1 (Host.reduceAdd (F := Ideal) (mulf (m ((c : Thread nD τ).loc main_arg0)) (m ((c : Thread nD τ).loc main_arg0)))
          (constant (F := Ideal) S_ .f32 0x00000000#32) reducesTo_S4096x1024_S4096_d1 h_S_) shapeCasts_S4096_S4096x1 := by
    dsimp only [V, V0]
    simp only [hostOps0, List.flatten_cons, List.flatten_nil, List.append_nil]
    after_results
    rfl
  refine (congrFun e (ix2 P 0)).trans ?_
  refine (shapeCast_apply _ _ (ix2 P 0) (ix1 P) ?_).trans ?_
  · rw [Shape.rowMajor_val_two, Shape.rowMajor_val_one]
    show P.val = P.val * 1 + 0
    omega
  exact rowSum_apply _ P

/-- The row of squared norms as the region finds it: entry `(0, Q)` is centre `Q`'s squared norm. -/
theorem sqnRow_apply (c : Dev nD) (Q : Fin 4096) :
    (V m c main_v3 : S1x4096.Idx → EReal) (ix2 0 Q) = Cert.Spec.sqn (argMat m c) Q := by
  have e : (V m c main_v3 : S1x4096.Idx → EReal)
      = shapeCast S1x4096 (Host.reduceAdd (F := Ideal) (mulf (m ((c : Thread nD τ).loc main_arg0)) (m ((c : Thread nD τ).loc main_arg0)))
          (constant (F := Ideal) S_ .f32 0x00000000#32) reducesTo_S4096x1024_S4096_d1 h_S_) shapeCasts_S4096_S1x4096 := by
    dsimp only [V, V0]
    simp only [hostOps0, List.flatten_cons, List.flatten_nil, List.append_nil]
    after_results
    rfl
  refine (congrFun e (ix2 0 Q)).trans ?_
  refine (shapeCast_apply _ _ (ix2 0 Q) (ix1 Q) ?_).trans ?_
  · rw [Shape.rowMajor_val_two, Shape.rowMajor_val_one]
    show Q.val = (0 : Fin 1).val * 4096 + Q.val
    simp
  exact rowSum_apply _ Q

/-! ## The windows' blocks read at an index

Point `t` is tile `(t / 8, t % 8)`: the row block and the column of squared norms move with `t / 8`, the column block
and the row of squared norms with `t % 8`. -/

theorem idxMaps : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N, _)

/-- Row `p` of the row block is centre `512 (t / 8) + p`. -/
theorem rowBlk_apply (c : Dev nD) (t : Fin cfg0.N) (p : Fin 512) (k : Fin 1024) (P : Fin 4096)
    (hP : P.val = 512 * (t.val / 8) + p.val) :
    (iblk m c 0 t : FVec Ideal S512x1024 .f32) (ix2 p k) = argMat m c P k := by
  obtain ⟨h0, h1, -⟩ := idxMaps t
  unfold iblk
  rw [View.read_apply]
  show V m c main_arg0 _ = m ((c : Thread nD τ).loc main_arg0) (ix2 P k)
  rw [V_main_arg0]
  refine congrArg _ (funext fun a => Fin.ext ?_)
  match a with
  | ⟨0, _⟩ => show win0_0.index t (0 : Fin 2) * 512 + 1 * p.val = P.val; rw [h0, hP]; omega
  | ⟨1, _⟩ => show win0_0.index t (1 : Fin 2) * 1024 + 1 * k.val = k.val; rw [h1]; omega

/-- Row `q` of the column block is centre `512 (t % 8) + q`. -/
theorem colBlk_apply (c : Dev nD) (t : Fin cfg0.N) (q : Fin 512) (k : Fin 1024) (Q : Fin 4096)
    (hQ : Q.val = 512 * (t.val % 8) + q.val) :
    (iblk m c 1 t : FVec Ideal S512x1024 .f32) (ix2 q k) = argMat m c Q k := by
  obtain ⟨-, -, h0, h1, -⟩ := idxMaps t
  unfold iblk
  rw [View.read_apply]
  show V m c main_arg0 _ = m ((c : Thread nD τ).loc main_arg0) (ix2 Q k)
  rw [V_main_arg0]
  refine congrArg _ (funext fun a => Fin.ext ?_)
  match a with
  | ⟨0, _⟩ => show win0_1.index t (0 : Fin 2) * 512 + 1 * q.val = Q.val; rw [h0, hQ]; omega
  | ⟨1, _⟩ => show win0_1.index t (1 : Fin 2) * 1024 + 1 * k.val = k.val; rw [h1]; omega

/-- Entry `p` of the block of the column of squared norms is centre `512 (t / 8) + p`'s squared norm. -/
theorem sqnColBlk_apply (c : Dev nD) (t : Fin cfg0.N) (p : Fin 512) (P : Fin 4096)
    (hP : P.val = 512 * (t.val / 8) + p.val) :
    (iblk m c 2 t : FVec Ideal S512x1 .f32) (ix2 p 0) = Cert.Spec.sqn (argMat m c) P := by
  obtain ⟨-, -, -, -, h0, h1, -⟩ := idxMaps t
  refine Eq.trans ?_ (sqnCol_apply m c P)
  unfold iblk
  rw [View.read_apply]
  show (V m c main_v2 : S4096x1.Idx → EReal) _ = (V m c main_v2 : S4096x1.Idx → EReal) (ix2 P 0)
  refine congrArg (V m c main_v2 : S4096x1.Idx → EReal) (funext fun a => Fin.ext ?_)
  match a with
  | ⟨0, _⟩ => show win0_2.index t (0 : Fin 2) * 512 + 1 * p.val = P.val; rw [h0, hP]; omega
  | ⟨1, _⟩ => show win0_2.index t (1 : Fin 2) * 1 + 1 * (0 : Fin 1).val = (0 : Fin 1).val; rw [h1]; simp

/-- Entry `q` of the block of the row of squared norms is centre `512 (t % 8) + q`'s squared norm. -/
theorem sqnRowBlk_apply (c : Dev nD) (t : Fin cfg0.N) (q : Fin 512) (Q : Fin 4096)
    (hQ : Q.val = 512 * (t.val % 8) + q.val) :
    (iblk m c 3 t : FVec Ideal S1x512 .f32) (ix2 0 q) = Cert.Spec.sqn (argMat m c) Q := by
  obtain ⟨-, -, -, -, -, -, h0, h1⟩ := idxMaps t
  refine Eq.trans ?_ (sqnRow_apply m c Q)
  unfold iblk
  rw [View.read_apply]
  show (V m c main_v3 : S1x4096.Idx → EReal) _ = (V m c main_v3 : S1x4096.Idx → EReal) (ix2 0 Q)
  refine congrArg (V m c main_v3 : S1x4096.Idx → EReal) (funext fun a => Fin.ext ?_)
  match a with
  | ⟨0, _⟩ => show win0_3.index t (0 : Fin 2) * 1 + 1 * (0 : Fin 1).val = (0 : Fin 1).val; rw [h0]; simp
  | ⟨1, _⟩ => show win0_3.index t (1 : Fin 2) * 512 + 1 * q.val = Q.val; rw [h1, hQ]; omega

/-! ## A tile's scalar is the specification's tile sum -/

/-- One entry of the body's tile, over blocks that read the matrix's rows and squared norms, is the pair's hinge term. -/
theorem entry_eq_hinge (a : Fin 4096 → Fin 1024 → EReal) (i j : Fin 8)
    (x0 x1 : FVec Ideal S512x1024 .f32) (x2 : FVec Ideal S512x1 .f32) (x3 : FVec Ideal S1x512 .f32) (p q : Fin 512)
    (h0 : ∀ k : Fin 1024, x0 (ix2 p k) = a (Cert.Spec.row i p) k)
    (h1 : ∀ k : Fin 1024, x1 (ix2 q k) = a (Cert.Spec.row j q) k)
    (h2 : x2 (ix2 p 0) = Cert.Spec.sqn a (Cert.Spec.row i p))
    (h3 : x3 (ix2 0 q) = Cert.Spec.sqn a (Cert.Spec.row j q)) :
    entry i j x0 x1 x2 x3 p q = Cert.Spec.hinge a (Cert.Spec.row i p) (Cert.Spec.row j q) := by
  unfold entry Cert.Spec.hinge Cert.Spec.dist2 Cert.Spec.gram
  rw [h2, h3, Finset.sum_congr rfl fun k _ => by rw [h0 k, h1 k]]
  rfl

/-- The tile's scalar at point `t` is the specification's sum over tile `(t / 8, t % 8)`. -/
theorem tileAt_eq (c : Dev nD) (t : Fin cfg0.N) :
    tileAt (F := Ideal) m c t
      = Cert.Spec.tile (argMat m c) ⟨t.val / 8 % 8, Nat.mod_lt _ (by decide)⟩ ⟨t.val % 8, Nat.mod_lt _ (by decide)⟩ := by
  have ht : t.val < 64 := t.isLt
  have hi : (⟨t.val / 8 % 8, Nat.mod_lt _ (by decide)⟩ : Fin 8) = ⟨t.val / 8, by omega⟩ := Fin.ext (Nat.mod_eq_of_lt (by omega))
  rw [hi]
  unfold tileAt
  rw [coords0 t, coords1 t]
  refine (pay3_eq ⟨t.val / 8, by omega⟩ ⟨t.val % 8, Nat.mod_lt _ (by decide)⟩ (iblk m c 0 t) (iblk m c 1 t) (iblk m c 2 t) (iblk m c 3 t)).trans ?_
  unfold Cert.Spec.tile
  refine Finset.sum_congr rfl fun p _ => Finset.sum_congr rfl fun q _ => ?_
  exact entry_eq_hinge (argMat m c) ⟨t.val / 8, by omega⟩ ⟨t.val % 8, Nat.mod_lt _ (by decide)⟩
    (iblk m c 0 t) (iblk m c 1 t) (iblk m c 2 t) (iblk m c 3 t) p q
    (fun k => rowBlk_apply m c t p k _ rfl) (fun k => colBlk_apply m c t q k _ rfl)
    (sqnColBlk_apply m c t p _ rfl) (sqnRowBlk_apply m c t q _ rfl)

/-! ## The running scalar is the specification's -/

/-- THE RUNNING SCALAR, READ: after point `n` the scratch's one entry is the specification's running sum of the argument matrix. -/
theorem accAt_eq (m : (ℓ : Loc nD τ sig) → Buf (Elt Ideal) ℓ) (c : Dev nD) (n : ℕ) (hn : n < cfg0.N) :
    accAt (F := Ideal) m c n hn = fun _ => Cert.Spec.accR (fun P k => m ((c : Thread nD τ).loc main_arg0) (ix2 P k)) n := by
  induction n with
  | zero =>
    have eR : Cert.Spec.accR (argMat m c) 0 = 0 + Cert.Spec.tile (argMat m c) 0 0 := rfl
    have e0 : (⟨(⟨0, hn⟩ : Fin cfg0.N).val / 8 % 8, Nat.mod_lt _ (by decide)⟩ : Fin 8) = 0 := Fin.ext (by simp)
    have e1 : (⟨(⟨0, hn⟩ : Fin cfg0.N).val % 8, Nat.mod_lt _ (by decide)⟩ : Fin 8) = 0 := Fin.ext (by simp)
    show _ = fun _ => Cert.Spec.accR (argMat m c) 0
    rw [accAt_zero, pay2_eq, pay1_eq, tileAt_eq, e0, e1, eR]
  | succ n ih =>
    have ih' := ih (Nat.lt_of_succ_lt hn)
    have eL : accAt (F := Ideal) m c (n + 1) hn
        = if (n + 1) / 8 ≤ (n + 1) % 8 then k0_pay2 (accAt m c n (Nat.lt_of_succ_lt hn)) (tileAt m c ⟨n + 1, hn⟩)
          else accAt m c n (Nat.lt_of_succ_lt hn) := rfl
    have eR : Cert.Spec.accR (argMat m c) (n + 1)
        = if (n + 1) / 8 ≤ (n + 1) % 8 then
            Cert.Spec.accR (argMat m c) n
              + Cert.Spec.tile (argMat m c) ⟨(n + 1) / 8 % 8, Nat.mod_lt _ (by decide)⟩ ⟨(n + 1) % 8, Nat.mod_lt _ (by decide)⟩
          else Cert.Spec.accR (argMat m c) n := rfl
    show _ = fun _ => Cert.Spec.accR (argMat m c) (n + 1)
    rw [eL, eR]
    by_cases h : (n + 1) / 8 ≤ (n + 1) % 8
    · rw [if_pos h, if_pos h, pay2_eq, ih', tileAt_eq]
    · rw [if_neg h, if_neg h]
      exact ih'

end Cert.KernelIdeal.HandValue

end
-- ==== Proof.KI.Result.lean ====
/-
  The program's result. The result's array has one entry and one block, written back at the last grid point only,
  with the running scalar the scratch holds after that point; the host line after the region reshapes that
  one-entry array to the scalar result.
-/
import proofs.«133229_j43258910605422_1_alg».proof.Proof.KI.Launch
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem h63 : 63 < cfg0.N := by rw [show cfg0.N = 64 from N_0]; decide

/-- Both axes of the one-entry shape have extent one: it has a single index. -/
instance subsingleton_idx_S1x1 : Subsingleton S1x1.Idx :=
  ⟨fun x y => funext fun a => match a with
    | ⟨0, _⟩ => Subsingleton.elim (α := Fin 1) _ _
    | ⟨1, _⟩ => Subsingleton.elim (α := Fin 1) _ _⟩

section
variable (m : (ℓ : Loc nD τ sig) → Buf (Elt F) ℓ)

/-- The result's array at exit: its one block is written back at the last point only, with the scratch after that point. -/
theorem arrAt4_eq (c : Dev nD) : (dats m 0 c).arrAt 4 cfg0.N = accAt m c 63 h63 := by
  refine (dats m 0 c).arrAt_eq_of_cover 4 (accAt m c 63 h63) ?_ ?_
  · -- the one write-back writes the scratch after the last point: both sides read it at the shape's single index
    intro t hf
    have hN : cfg0.N = 64 := N_0
    have h3 : t.val = 63 := by have := (flush0_4 t).mp hf; have := t.isLt; omega
    obtain rfl : t = ⟨63, h63⟩ := Fin.ext h3
    funext y
    show (dats m 0 c).after 4 ⟨63, h63⟩ ((cfg0.win 4).xinj _ y) = _
    rw [after4, View.read_apply]
    exact congrArg (accAt m c 63 h63) (Subsingleton.elim (α := S1x1.Idx) _ _)
  · -- the last point's block holds the array's single index
    intro i
    refine ⟨⟨63, h63⟩, (flush0_4 _).mpr rfl, ?_⟩
    have y0 : ((cfg0.win 4).xblock (cfg0.grid.coords ⟨63, h63⟩)).Idx := fun a => match a with
      | ⟨0, _⟩ => (0 : Fin 1)
      | ⟨1, _⟩ => (0 : Fin 1)
    have e : i = ((cfg0.win 4).blk ⟨63, h63⟩).view.emb y0 := Subsingleton.elim (α := S1x1.Idx) _ _
    rw [e]; exact View.emb_mem_set _ _

end

open Idealize.ShloMosaic.ValueIdx in
/-- At the ideal instance the program's result is the scratch's one entry after the last point. -/
theorem resOf_eq (m : (ℓ : Loc nD τ sig) → Buf (Elt Ideal) ℓ) (c : Dev nD) :
    resOf (F := Ideal) m c = fun _ => accAt (F := Ideal) m c 63 h63 (ix2 0 0) := by
  unfold resOf
  simp only [hostOps1, List.flatten_cons, List.flatten_nil, List.append_nil]
  after_results
  funext i
  show shapeCast S_ (Wx m c (Proc.devRef .tc main_v4)) shapeCasts_S1x1_S_ i = _
  -- both shapes have one entry, so the row-major positions agree (both are 0)
  have hk : (S1x1.rowMajor (ix2 0 0)).val = (S_.rowMajor i).val := by
    have h1 := (S1x1.rowMajor (ix2 0 0)).isLt
    have h2 := (S_.rowMajor i).isLt
    have e1 : S1x1.numel = 1 := by decide
    have e2 : S_.numel = 1 := by decide
    omega
  refine (shapeCast_apply _ _ i (ix2 0 0) hk).trans ?_
  exact congrFun ((Wx_v4 m c).trans (arrAt4_eq m c)) (ix2 0 0)

end Cert.KernelIdeal.Hand

end
-- ==== Proof.RefValue.lean ====
/-
  The reference program's result, read at the ideal instance, is the specification's total.

  The reference computes, for centres a, the squared norms s_P = ∑ₖ a_P,k², the Gram matrix g_PQ = ∑ₖ a_P,k · a_Q,k,
  the clamped squared distance max (s_P + s_Q − 2 g_PQ) 0, a strict upper-triangular mask (P < Q), the square root of
  the masked distance (the masked-out entries read 1), the hinge max 0 (margin − distance) above the diagonal and 0
  elsewhere, and the sum of all entries. Each stage is read at one index; the last sum over all pairs of indices is the
  double sum over the two coordinates.
-/
import proofs.«133229_j43258910605422_1_alg».proof.Proof.Gen.ReferenceIdeal.Read
import proofs.«133229_j43258910605422_1_alg».proof.Proof.Spec
import Idealize.ShloMosaic.Lib.StableHlo.Predicate

noncomputable section

namespace Cert.RefValue

open Cert.ReferenceIdeal Cert.ReferenceIdeal.Gen Idealize.ShloMosaic Idealize.ShloMosaic.ValueIdx

/-- The centres as a plain matrix. -/
abbrev mat (x0 : (⟨S4096x1024, .f32⟩ : BufTy).Contents (Elt Ideal)) : Fin 4096 → Fin 1024 → EReal :=
  fun P k => x0 (ix2 P k)

/-! ## Index equations -/

theorem idx_v1 (P : Fin 4096) (k : Fin 1024) : Read.idx_main_v1 (ix1 P) k = ix2 P k :=
  funext fun a => Fin.ext (by match a with | ⟨0, _⟩ => rfl | ⟨1, _⟩ => rfl)

theorem lidx_v3 (P Q : Fin 4096) (k : Fin 1024) : Read.lidx_main_v3 (ix2 P Q) k = ix2 P k :=
  funext fun a => Fin.ext (by match a with | ⟨0, _⟩ => rfl | ⟨1, _⟩ => rfl)

theorem ridx_v3 (P Q : Fin 4096) (k : Fin 1024) : Read.idx_main_v2 (Read.ridx_main_v3 (ix2 P Q) k) = ix2 Q k :=
  funext fun a => Fin.ext (by match a with | ⟨0, _⟩ => rfl | ⟨1, _⟩ => rfl)

theorem idx_v6 (P Q : Fin 4096) : Read.idx_main_v4 (Read.idx_main_v6 (ix2 P Q)) = ix1 P :=
  funext fun a => Fin.ext (by match a with | ⟨0, _⟩ => rfl)

theorem idx_v7 (P Q : Fin 4096) : Read.idx_main_v5 (Read.idx_main_v7 (ix2 P Q)) = ix1 Q :=
  funext fun a => Fin.ext (by match a with | ⟨0, _⟩ => rfl)

/-! ## The squared norms and the Gram matrix -/

/-- The row sums of squares are the squared norms. -/
theorem sq_apply (x0 : (⟨S4096x1024, .f32⟩ : BufTy).Contents (Elt Ideal)) (P : Fin 4096) :
    Read.val_main_v1 (F := Ideal) x0 (ix1 P) = Cert.Spec.sqn (mat x0) P := by
  rw [Read.val_main_v1_apply, Read.val_main_cst_apply, Ideal.ofBits_def, Ideal.ofBits_zero_f32, zero_add]
  unfold Cert.Spec.sqn
  refine Finset.sum_congr rfl fun k _ => ?_
  rw [Read.val_main_v0_apply, idx_v1, Ideal.mulf_def]

/-- The product with the transpose is the Gram matrix. -/
theorem gram_apply (x0 : (⟨S4096x1024, .f32⟩ : BufTy).Contents (Elt Ideal)) (P Q : Fin 4096) :
    Read.val_main_v3 (F := Ideal) x0 (ix2 P Q) = Cert.Spec.gram (mat x0) P Q := by
  rw [Read.val_main_v3_apply]
  unfold Cert.Spec.gram
  refine Finset.sum_congr rfl fun k _ => ?_
  rw [Read.val_main_v2_apply, lidx_v3, ridx_v3]

/-- The clamped squared distance. -/
theorem d2_apply (x0 : (⟨S4096x1024, .f32⟩ : BufTy).Contents (Elt Ideal)) (P Q : Fin 4096) :
    Read.val_main_v13 (F := Ideal) x0 (ix2 P Q) = Cert.Spec.dist2 (mat x0) P Q := by
  rw [Read.val_main_v13_apply, Read.val_main_v11_apply, Read.val_main_v12_apply, Read.val_main_cst_1_apply,
    Read.val_main_v8_apply, Read.val_main_v10_apply, Read.val_main_v9_apply, Read.val_main_cst_0_apply,
    Read.val_main_v6_apply, Read.val_main_v7_apply, Read.val_main_v4_apply, Read.val_main_v5_apply,
    idx_v6, idx_v7, sq_apply, sq_apply, gram_apply]
  simp only [Ideal.maximumf_def, Ideal.subf_def, Ideal.addf_def, Ideal.mulf_def, Ideal.ofBits_def, Ideal.ofBits_zero_f32]
  rfl

/-! ## The mask -/

/-- The strict upper triangle: the mask's bit is set exactly above the diagonal. -/
theorem mask_apply (P Q : Fin 4096) :
    Read.val_main_v15 (F := Ideal) (ix2 P Q) = if P.val < Q.val then 1#1 else 0#1 := by
  rw [Read.val_main_v15_apply, Read.val_main_call0_v4_apply, Read.val_main_call0_v5_apply, Read.val_main_call0_c_0_apply,
    Read.val_main_v14_apply, Read.val_main_c_apply, Read.val_main_call0_v2_apply, Read.val_main_call0_v3_apply,
    Read.val_main_call0_v0_apply, Read.val_main_call0_v1_apply, Read.val_main_call0_c_apply]
  show Scalar.select (IntOp.cmpi .sge (IntOp.addi (BitVec.ofNat 32 P.val) 0#32) (BitVec.ofNat 32 Q.val)) 0#1 1#1 = _
  have hP := P.isLt
  have hQ := Q.isLt
  have tP : (BitVec.ofNat 32 P.val).toNat = P.val := by rw [BitVec.toNat_ofNat]; omega
  have tQ : (BitVec.ofNat 32 Q.val).toNat = Q.val := by rw [BitVec.toNat_ofNat]; omega
  have hadd : IntOp.addi (BitVec.ofNat 32 P.val) 0#32 = BitVec.ofNat 32 P.val := BitVec.add_zero _
  rw [hadd]
  by_cases h : P.val < Q.val
  · have hc : IntOp.cmpi .sge (BitVec.ofNat 32 P.val) (BitVec.ofNat 32 Q.val) = 0#1 := by
      apply eq_zero_of_ne_one
      rw [StableHlo.Predicate.sge_iff_toNat (by omega) (by omega), tP, tQ]
      omega
    rw [if_pos h, hc, select_zero]
  · have hc : IntOp.cmpi .sge (BitVec.ofNat 32 P.val) (BitVec.ofNat 32 Q.val) = 1#1 :=
      (StableHlo.Predicate.sge_iff_toNat (by omega) (by omega)).mpr (by rw [tP, tQ]; omega)
    rw [if_neg h, hc, select_one]

/-! ## One pair's term -/

/-- The reference's last array, read at a pair, is the specification's term for that pair. -/
theorem hinge_apply (x0 : (⟨S4096x1024, .f32⟩ : BufTy).Contents (Elt Ideal)) (P Q : Fin 4096) :
    Read.val_main_v22 (F := Ideal) x0 (ix2 P Q) = Cert.Spec.hinge (mat x0) P Q := by
  rw [Read.val_main_v22_apply, Read.val_main_call2_v1_apply, Read.val_main_call2_v0_apply, Read.val_main_cst_5_apply,
    Read.val_main_v21_apply, Read.val_main_v20_apply, Read.val_main_cst_4_apply, Read.val_main_v19_apply,
    Read.val_main_v18_apply, Read.val_main_cst_3_apply, Read.val_main_v17_apply, Read.val_main_v16_apply,
    Read.val_main_call1_v1_apply, Read.val_main_call1_v0_apply, Read.val_main_cst_2_apply, d2_apply, mask_apply]
  simp only [Ideal.maximumf_def, Ideal.subf_def, Ideal.hostUnary_sqrt_def, Ideal.ofBits_def, Ideal.ofBits_zero_f32]
  unfold Cert.Spec.hinge
  by_cases h : P.val < Q.val
  · rw [if_pos h, if_pos h, select_one, select_one]
  · rw [if_neg h, if_neg h, select_zero]

/-! ## The total -/

open Cert.ReferenceIdeal Cert.ReferenceIdeal.Gen Idealize.ShloMosaic Idealize.ShloMosaic.ValueIdx in
/-- The sum of all entries of the last array, from zero, is the sum over all ordered pairs of the pair's term. -/
theorem ref_total (x0 : (⟨S4096x1024, .f32⟩ : BufTy).Contents (Elt Ideal)) :
    Cert.ReferenceIdeal.Read.val_main_v23 (F := Ideal) x0 = fun _ => Cert.Spec.total (fun P k => x0 (ix2 P k)) := by
  funext i
  rw [Read.val_main_v23_apply, Read.val_main_cst_6_apply, Ideal.ofBits_def, Ideal.ofBits_zero_f32, zero_add, sum_idx2]
  unfold Cert.Spec.total
  exact Finset.sum_congr rfl fun P _ => Finset.sum_congr rfl fun Q _ => hinge_apply x0 P Q

end Cert.RefValue

end
-- ==== Proof.TileSum.lean ====
/-
  The tile walk sums everything.

  The 4096 × 4096 matrix of pair terms is cut into an 8 × 8 grid of 512 × 512 tiles. A pair term vanishes
  unless its row index is strictly below its column index, so every tile strictly below the diagonal of the
  grid sums to zero. The running scalar therefore equals the sum of all 64 tiles after the last grid point,
  and the 64 tiles partition the index set of the whole double sum.
-/
import proofs.«133229_j43258910605422_1_alg».proof.Proof.Spec
import Mathlib.Algebra.BigOperators.Fin
import Mathlib.Logic.Equiv.Fin.Basic

noncomputable section

namespace Cert.Spec

open Idealize.ShloMosaic

/-- Cutting `Fin N` with `N = m * n` into `m` consecutive blocks of length `n`: a sum over the blocks and then
    inside each block is the sum over everything, for any block map `r` with `r i p = n * i + p`. -/
theorem sum_blocks {M : Type*} [AddCommMonoid M] {m n N : ℕ} (hN : m * n = N)
    (r : Fin m → Fin n → Fin N) (hr : ∀ i p, (r i p).val = n * i.val + p.val) (f : Fin N → M) :
    ∑ i : Fin m, ∑ p : Fin n, f (r i p) = ∑ P : Fin N, f P := by
  subst hN
  rw [← Fintype.sum_prod_type']
  refine Fintype.sum_equiv finProdFinEquiv _ _ ?_
  rintro ⟨i, p⟩
  refine congrArg f (Fin.ext ?_)
  rw [hr]
  simp [finProdFinEquiv, Nat.add_comm]

/-- A pair term on or below the diagonal is zero. -/
theorem hinge_eq_zero (a : Fin 4096 → Fin 1024 → EReal) {P Q : Fin 4096} (h : ¬ P.val < Q.val) :
    hinge a P Q = 0 := by
  unfold hinge
  exact if_neg h

theorem row_val (i : Fin 8) (p : Fin 512) : (row i p).val = 512 * i.val + p.val := rfl

/-- A tile strictly below the diagonal of the grid sums to zero: each of its rows lies at or after each of its
    columns. -/
theorem tile_eq_zero (a : Fin 4096 → Fin 1024 → EReal) {i j : Fin 8} (h : j.val < i.val) :
    tile a i j = 0 := by
  unfold tile
  refine Finset.sum_eq_zero (fun p _ => Finset.sum_eq_zero (fun q _ => ?_))
  refine hinge_eq_zero a ?_
  rw [row_val, row_val]
  have hq := q.isLt
  omega

/-- The tile visited at grid point `t` (row-major). -/
def visited (a : Fin 4096 → Fin 1024 → EReal) (t : ℕ) : EReal :=
  tile a ⟨t / 8 % 8, Nat.mod_lt _ (by decide)⟩ ⟨t % 8, Nat.mod_lt _ (by decide)⟩

/-- The running scalar is the sum of the visited tiles on or above the diagonal. -/
theorem accR_eq_sum_ite (a : Fin 4096 → Fin 1024 → EReal) (n : ℕ) :
    accR a n = ∑ t ∈ Finset.range (n + 1), (if t / 8 ≤ t % 8 then visited a t else 0) := by
  induction n with
  | zero =>
    rw [Finset.sum_range_one]
    show 0 + tile a 0 0 = _
    rw [zero_add, if_pos (by decide)]
    rfl
  | succ n ih =>
    rw [Finset.sum_range_succ, ← ih]
    show (if (n + 1) / 8 ≤ (n + 1) % 8 then accR a n + visited a (n + 1) else accR a n) = _
    by_cases h : (n + 1) / 8 ≤ (n + 1) % 8
    · rw [if_pos h, if_pos h]
    · rw [if_neg h, if_neg h, add_zero]

/-- Within the 8 × 8 grid the skipped tiles are zero, so the running scalar is the sum of all visited tiles. -/
theorem accR_eq_sum (a : Fin 4096 → Fin 1024 → EReal) {n : ℕ} (hn : n < 64) :
    accR a n = ∑ t ∈ Finset.range (n + 1), visited a t := by
  rw [accR_eq_sum_ite]
  refine Finset.sum_congr rfl (fun t ht => ?_)
  have ht' : t < n + 1 := Finset.mem_range.mp ht
  by_cases h : t / 8 ≤ t % 8
  · rw [if_pos h]
  · rw [if_neg h]
    refine (tile_eq_zero a ?_).symm
    show t % 8 < t / 8 % 8
    omega

/-- The 64 grid points are the 8 × 8 tiles. -/
theorem sum_visited (a : Fin 4096 → Fin 1024 → EReal) :
    ∑ t ∈ Finset.range 64, visited a t = ∑ i : Fin 8, ∑ j : Fin 8, tile a i j := by
  rw [Finset.sum_range]
  rw [← sum_blocks (m := 8) (n := 8) (N := 64) rfl
    (fun i j => ⟨8 * i.val + j.val, by omega⟩) (fun _ _ => rfl) (fun t : Fin 64 => visited a t.val)]
  refine Finset.sum_congr rfl (fun i _ => Finset.sum_congr rfl (fun j _ => ?_))
  have hi := i.isLt
  have hj := j.isLt
  have h1 : (8 * i.val + j.val) / 8 % 8 = i.val := by omega
  have h2 : (8 * i.val + j.val) % 8 = j.val := by omega
  show tile a ⟨(8 * i.val + j.val) / 8 % 8, _⟩ ⟨(8 * i.val + j.val) % 8, _⟩ = tile a i j
  congr 1
  · exact Fin.ext h1
  · exact Fin.ext h2

/-- The tiles partition the pairs. -/
theorem sum_tiles (a : Fin 4096 → Fin 1024 → EReal) :
    ∑ i : Fin 8, ∑ j : Fin 8, tile a i j = total a := by
  unfold total tile
  rw [← sum_blocks (m := 8) (n := 512) (N := 4096) rfl row row_val
    (fun P => ∑ Q : Fin 4096, hinge a P Q)]
  refine Finset.sum_congr rfl (fun i _ => ?_)
  rw [Finset.sum_comm]
  refine Finset.sum_congr rfl (fun p _ => ?_)
  exact sum_blocks (m := 8) (n := 512) (N := 4096) rfl row row_val (fun Q => hinge a (row i p) Q)

/-- After the last grid point the running scalar is the sum over all pairs. -/
theorem accR_last (a : Fin 4096 → Fin 1024 → EReal) : accR a 63 = total a := by
  rw [accR_eq_sum a (by decide), sum_visited, sum_tiles]

end Cert.Spec

end
-- ==== Proof.lean ====
/-
  The certificate. A hinge loss over all pairs of 4096 centres: for `P < Q` the positive part of
  `margin - sqrt (max (|a_P|² + |a_Q|² - 2 ⟨a_P, a_Q⟩) 0)`, summed. The reference sums the term over the whole
  4096 × 4096 pair matrix, zero on and below the diagonal. The kernel walks the matrix in 512 × 512 tiles, keeps one
  running scalar, and skips the tiles strictly below the diagonal, whose entries are all zero; over the extended
  reals, where sums may be regrouped freely, the two totals are one number (`Cert.Spec.total`).

  The frames: each kernel program is the host lines computing the squared norms, one pipelined region whose two
  row-block windows read the argument at its two half shares, and the reshape of the result; the body is run once
  per control case and the region's invariant carries the running scalar from point to point. The reference's frame
  and value are its run read back operation by operation.
-/
import proofs.«133229_j43258910605422_1_alg».proof.Defs
import proofs.«133229_j43258910605422_1_alg».proof.Proof.Gen.Kernel
import proofs.«133229_j43258910605422_1_alg».proof.Proof.Gen.KernelIdeal
import proofs.«133229_j43258910605422_1_alg».proof.Proof.Gen.ReferenceIdeal
import proofs.«133229_j43258910605422_1_alg».proof.Proof.Gen.Pre_finite_inputs
import proofs.«133229_j43258910605422_1_alg».proof.Proof.Gen.ReferenceIdeal.Run
import proofs.«133229_j43258910605422_1_alg».proof.Proof.Gen.ReferenceIdeal.Read
import proofs.«133229_j43258910605422_1_alg».proof.Proof.K.Body
import proofs.«133229_j43258910605422_1_alg».proof.Proof.K.Launch
import proofs.«133229_j43258910605422_1_alg».proof.Proof.KI.Body
import proofs.«133229_j43258910605422_1_alg».proof.Proof.KI.Launch
import proofs.«133229_j43258910605422_1_alg».proof.Proof.KI.Value
import proofs.«133229_j43258910605422_1_alg».proof.Proof.KI.Result
import proofs.«133229_j43258910605422_1_alg».proof.Proof.RefValue
import proofs.«133229_j43258910605422_1_alg».proof.Proof.TileSum
import Idealize.ShloMosaic.Adequacy
import Idealize.ShloMosaic.Init

noncomputable section

namespace Cert.Proof

open Idealize.ShloMosaic Idealize.ShloMosaic.TcCoe Idealize.SL.Sem

/-- The word-level kernel runs to the end and leaves its argument unchanged. -/
theorem frame_k : Cert.frame_Kernel := fun m ρ _ =>
  (θ_run Cert.Kernel.defs _ _).mono (fun _ h c => (h c).2)
    (Cert.Kernel.Hand.run_main_of (F := Bits) m ρ (Cert.Kernel.Hand.body_obligation m))

/-- So does the idealized kernel. -/
theorem frame_ki : Cert.frame_KernelIdeal := fun m ρ _ =>
  (θ_run Cert.KernelIdeal.defs _ _).mono (fun _ h c => (h c).2)
    (Cert.KernelIdeal.Hand.run_main_of (F := Ideal) m ρ (Cert.KernelIdeal.Hand.body_obligation m))

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the loss of the argument matrix: the kernel's running scalar after the last
    tile is the sum over all pairs, and the reference's reduction is that sum. -/
theorem algebraic : Cert.algebraic_KernelIdeal_ReferenceIdeal := by
  intro m ρ m' ρ' _ hagree
  refine ⟨fun c => fun _ => Cert.Spec.total (fun P k => m ((c.tc : Thread Cert.KernelIdeal.nD Cert.KernelIdeal.τ).loc Cert.KernelIdeal.main_arg0) (ValueIdx.ix2 P k)), ?_, ?_⟩
  · refine (θ_run Cert.KernelIdeal.defs _ _).mono (fun _ h c => ⟨(h c).1.trans ?_, (h c).2⟩)
      (Cert.KernelIdeal.Hand.run_main_of (F := Ideal) m ρ (Cert.KernelIdeal.Hand.body_obligation m))
    rw [Cert.KernelIdeal.Hand.resOf_eq, Cert.KernelIdeal.HandValue.accAt_eq, Cert.Spec.accR_last]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.RefValue.ref_total, hagree c]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
